-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S512x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32 : Shape := ⟨1, ![32]⟩
abbrev S64x1024x1024 : Shape := ⟨3, ![64, 1024, 1024]⟩
abbrev S64x1024 : Shape := ⟨2, ![64, 1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x1024 : S_.BroadcastsInDim S64x1024 (![] : Fin 0 → Fin S64x1024.rank)
  reducesTo_S64x1024_S_d0_1 : S64x1024.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg1 : IVec S32 32) (main_v13 : IVec S_ 1) (main_v15 : IVec S32 1) (main_c_5 : IVec S_ 32) : IVec S_ 1 :=
  let main_v16 : IVec S32 32 := broadcastInDim S32 ![] bcast_S_S32 main_c_5
  let main_v17 : IVec S32 1 := cmpi .slt main_arg1 main_v16
  let main_v18 : IVec S32 1 := andi main_v15 main_v17
  let main_c_6 : IVec S_ 1 := constantI S_ 1 1#1
  let main_v19 : IVec S_ 1 := (fun x v => Host.reduce IntOp.andi x v reducesTo_S32_S_d0 h_S_) main_v18 main_c_6
  let main_v20 : IVec S_ 1 := andi main_v13 main_v19
  main_v20

def fn {F : FTy → Type} [FloatOps F] (main_arg0 : FVec F S32x512x1024 .f32) (main_arg1 : IVec S32 32) (main_arg2 : FVec F S64x1024x1024 .f32) (main_arg3 : FVec F S64x1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S64x1024x1024 .f32 := Host.absf main_arg2
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S64x1024 .f32 := Host.absf main_arg3
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_c_4 : IVec S_ 32 := constantI S_ 32 0#32
  let main_v14 : IVec S32 32 := broadcastInDim S32 ![] bcast_S_S32 main_c_4
  let main_v15 : IVec S32 1 := cmpi .sge main_arg1 main_v14
  let main_c_5 : IVec S_ 32 := constantI S_ 32 64#32
  fn_part1 (F := F) main_arg1 main_v13 main_v15 main_c_5
-- ==== Kernel.lean ====
abbrev S32x512x1024 : Shape := ⟨3, ![32, 512, 1024]⟩
abbrev S32 : Shape := ⟨1, ![32]⟩
abbrev S64x1024x1024 : Shape := ⟨3, ![64, 1024, 1024]⟩
abbrev S64x1024 : Shape := ⟨2, ![64, 1024]⟩
abbrev S64x1x1024 : Shape := ⟨3, ![64, 1, 1024]⟩
abbrev S_ : Shape := ⟨0, ![]⟩
abbrev S32x1 : Shape := ⟨2, ![32, 1]⟩
abbrev S1x512x1024 : Shape := ⟨3, ![1, 512, 1024]⟩
abbrev S1 : Shape := ⟨1, ![1]⟩
abbrev S1x1024x1024 : Shape := ⟨3, ![1, 1024, 1024]⟩
abbrev S1x1x1024 : Shape := ⟨3, ![1, 1, 1024]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 16
  | .vmem => 8
  | .smem => 2
  | _ => 0

abbrev bufTy : (tb : Table) → Fin (tcTables nBuf tb) → BufTy
  | .hbm, ⟨0, _⟩ => ⟨S32x512x1024, .f32⟩
  | .hbm, ⟨1, _⟩ => ⟨S32, .i32⟩
  | .hbm, ⟨2, _⟩ => ⟨S64x1024x1024, .f32⟩
  | .hbm, ⟨3, _⟩ => ⟨S64x1024, .f32⟩
  | .hbm, ⟨4, _⟩ => ⟨S64x1x1024, .f32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i1⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S32x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | .local _ .smem, ⟨0, _⟩ => ⟨S32, .i32⟩
  | .local _ .smem, ⟨1, _⟩ => ⟨S32, .i32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1_0 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v9 : Ref sig .tc := ⟨.hbm, 15, rfl⟩
abbrev main_v1 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_v1.idx, main_v8.idx], fun | 0 => main_v1.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x1024_S64x1x1024 : S64x1024.ShapeCasts S64x1x1024
  bcast_S_S32 : S_.BroadcastsInDim S32 (![] : Fin 0 → Fin S32.rank)
  bcast_S32_S32x1_0 : S32.BroadcastsInDim S32x1 (![0] : Fin 1 → Fin S32x1.rank)
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  bitsLt_bf16_f32 : FTy.bits .bf16 < FTy.bits .f32
  broadcasts_S1x1024_S512x1024 : S1x1024.Broadcasts S512x1024
  shapeCasts_S512x1024_S1x512x1024 : S512x1024.ShapeCasts S1x512x1024
  gather_S32_S32x1_S32_n_0_n_n_0_1_1_wf : GatherDims.WF S32 S32x1 S32 [] [0] [] [0] [] 1 ![1]
  dot_S512x1024_S1024x1024_S512x1024_1_0_0_1_n_n_wf : DotDims.WF S512x1024 S1024x1024 S512x1024 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S32_S32x1_S32_n_0_n_n_0_1_1 : GatherDims S32 S32x1 S32 where
  offsetDims := []
  collapsedSliceDims := [0]
  operandBatchingDims := []
  startIndicesBatchingDims := []
  startIndexMap := [0]
  indexVectorDim := 1
  sliceSizes := ![1]
  wf := gather_S32_S32x1_S32_n_0_n_n_0_1_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_arg2) S1x1024x1024.size reads0_1 false false 2 stage0_1 sem0_1 nbuf0_1 hstage0_1

abbrev spec0_2 : Pipeline.WinSpec sig grid0.rank :=
  Pipeline.WinSpec.ofSpec (Memref.whole main_v0) S1x1x1024.size reads0_2 false false 2 stage0_2 sem0_2 nbuf0_2 hstage0_2

abbrev spec0_3 : Pipeline.WinSpec sig grid0.rank :=
  Pipeline.WinSpec.ofSpec (Memref.whole main_v9) S1x512x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x512x1024.size a ≤ S32x512x1024.size a), EltTy.bits .f32 = 32 ∨ (Rect.block (s := S32x512x1024) S1x512x1024.size (cc0_transform_0 k0_off1_inb numel1_S1 pf i) h).WholeWords (EltTy.packing .f32)) ∧
  (∀ i : grid0.Coords, ∃ h : (∀ a, (cc0_transform_1 k0_off1_inb numel1_S1 pf i a + 1) * S1x1024x1024.size a ≤ S64x1024x1024.size a), EltTy.bits .f32 = 32 ∨ (Rect.block (s := S64x1024x1024) S1x1024x1024.size (cc0_transform_1 k0_off1_inb numel1_S1 pf i) h).WholeWords (EltTy.packing .f32)) ∧
  (∀ i : grid0.Coords, ∃ h : (∀ a, (cc0_transform_2 k0_off1_inb numel1_S1 pf i a + 1) * S1x1x1024.size a ≤ S64x1x1024.size a), EltTy.bits .f32 = 32 ∨ (Rect.block (s := S64x1x1024) S1x1x1024.size (cc0_transform_2 k0_off1_inb numel1_S1 pf i) h).WholeWords (EltTy.packing .f32)) ∧
  (∀ i : grid0.Coords, ∃ h : (∀ a, (cc0_transform_3 k0_off1_inb numel1_S1 pf i a + 1) * S1x512x1024.size a ≤ S32x512x1024.size a), EltTy.bits .f32 = 32 ∨ (Rect.block (s := S32x512x1024) S1x512x1024.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32x512x1024 : Shape := ⟨3, ![32, 512, 1024]⟩
abbrev S32 : Shape := ⟨1, ![32]⟩
abbrev S64x1024x1024 : Shape := ⟨3, ![64, 1024, 1024]⟩
abbrev S64x1024 : Shape := ⟨2, ![64, 1024]⟩
abbrev S_ : Shape := ⟨0, ![]⟩
abbrev S32x1 : Shape := ⟨2, ![32, 1]⟩
abbrev S32x1024x1024 : Shape := ⟨3, ![32, 1024, 1024]⟩
abbrev S32x1024 : Shape := ⟨2, ![32, 1024]⟩
abbrev S32x1x1024 : Shape := ⟨3, ![32, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32, .i32⟩
  | .hbm, ⟨2, _⟩ => ⟨S64x1024x1024, .f32⟩
  | .hbm, ⟨3, _⟩ => ⟨S64x1024, .f32⟩
  | .hbm, ⟨4, _⟩ => ⟨S_, .i32⟩
  | .hbm, ⟨5, _⟩ => ⟨S32, .i32⟩
  | .hbm, ⟨6, _⟩ => ⟨S32, .i1⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32, .i32⟩
  | .hbm, ⟨11, _⟩ => ⟨S32x1, .i32⟩
  | .hbm, ⟨12, _⟩ => ⟨S32x1024x1024, .f32⟩
  | .hbm, ⟨13, _⟩ => ⟨S_, .i32⟩
  | .hbm, ⟨14, _⟩ => ⟨S32, .i32⟩
  | .hbm, ⟨15, _⟩ => ⟨S32, .i1⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S32x1, .i32⟩
  | .hbm, ⟨21, _⟩ => ⟨S32x1024, .f32⟩
  | .hbm, ⟨22, _⟩ => ⟨S32x512x1024, .f32⟩
  | .hbm, ⟨23, _⟩ => ⟨S32x1x1024, .f32⟩
  | .hbm, ⟨24, _⟩ => ⟨S32x512x1024, .f32⟩
  | .hbm, ⟨25, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S32x1024_S32x1x1024_0_2 : S32x1024.BroadcastsInDim S32x1x1024 (![0, 2] : Fin 2 → Fin S32x1x1024.rank)
  bcast_S32x1x1024_S32x512x1024_0_1_2 : S32x1x1024.BroadcastsInDim S32x512x1024 (![0, 1, 2] : Fin 3 → Fin S32x512x1024.rank)
  gather_S64x1024x1024_S32x1_S32x1024x1024_12_0_n_n_0_1_110241024_wf : GatherDims.WF S64x1024x1024 S32x1 S32x1024x1024 [1, 2] [0] [] [0] [] 1 ![1, 1024, 1024]
  gather_S64x1024_S32x1_S32x1024_1_0_n_n_0_1_11024_wf : GatherDims.WF S64x1024 S32x1 S32x1024 [1] [0] [] [0] [] 1 ![1, 1024]
  dot_S32x512x1024_S32x1024x1024_S32x512x1024_2_1_1_2_0_0_wf : DotDims.WF S32x512x1024 S32x1024x1024 S32x512x1024 [2] [1] [1] [2] [0] [0]

variable [Facts₀]

def gather_S64x1024x1024_S32x1_S32x1024x1024_12_0_n_n_0_1_110241024 : GatherDims S64x1024x1024 S32x1 S32x1024x1024 where
  offsetDims := [1, 2]
  collapsedSliceDims := [0]
  operandBatchingDims := []
  startIndicesBatchingDims := []
  startIndexMap := [0]
  indexVectorDim := 1
  sliceSizes := ![1, 1024, 1024]
  wf := gather_S64x1024x1024_S32x1_S32x1024x1024_12_0_n_n_0_1_110241024_wf
def gather_S64x1024_S32x1_S32x1024_1_0_n_n_0_1_11024 : GatherDims S64x1024 S32x1 S32x1024 where
  offsetDims := [1]
  collapsedSliceDims := [0]
  operandBatchingDims := []
  startIndicesBatchingDims := []
  startIndexMap := [0]
  indexVectorDim := 1
  sliceSizes := ![1, 1024]
  wf := gather_S64x1024_S32x1_S32x1024_1_0_n_n_0_1_11024_wf
def dot_S32x512x1024_S32x1024x1024_S32x512x1024_2_1_1_2_0_0 : DotDims S32x512x1024 S32x1024x1024 S32x512x1024 where
  lhsContracting := [2]
  rhsContracting := [1]
  lhsNonContracting := [1]
  rhsNonContracting := [2]
  lhsBatch := [0]
  rhsBatch := [0]
  wf := dot_S32x512x1024_S32x1024x1024_S32x512x1024_2_1_1_2_0_0_wf

class Facts : Prop extends Facts₀ where

variable [Facts]
-- ==== Proof.PreDecode.lean ====
/-
  What the precondition says of the arguments: every category word is in 0 … 63, and every float entry is a real.
-/
import proofs.«414717_j15642270892654_3_alg».proof.Pre_finite_inputs
import proofs.«414717_j15642270892654_3_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

namespace Cert.MoE.PreDecode

open Cert.Pre_finite_inputs
open Idealize.ShloMosaic Idealize.ShloMosaic.ValueIdx

variable {F : FTy → Type} [FloatOps F]

/-- The scalar shape has one index. -/
private theorem sub0 : Subsingleton S_.Idx := ⟨fun a b => funext fun d => d.elim0⟩

/-- A 32-bit word that is at least 0 and below 64 as a signed integer has unsigned value below 64: a signed value that is
    not negative has its top bit clear, so the word is below 2³¹, where the signed and the unsigned order agree. -/
private theorem word_lt (c : BitVec 32) (h0 : IntOp.cmpi .sge c 0#32 = 1#1) (h64 : IntOp.cmpi .slt c 64#32 = 1#1) : c.toNat < 64 := by
  have hs : (0#32 : BitVec 32).sle c = true := (StableHlo.Predicate.ofBool_eq_one_iff _).1 h0
  have hle : (0#32 : BitVec 32).toInt ≤ c.toInt := of_decide_eq_true hs
  have hz : (0#32 : BitVec 32).toInt = 0 := by decide
  have hpos : c.toNat < 2 ^ 31 := by
    rw [hz, BitVec.toInt_eq_toNat_cond] at hle
    have hc := c.isLt
    split at hle <;> omega
  exact (StableHlo.Predicate.slt_iff_toNat hpos (by decide)).1 h64

/-- The word 0x7F800000 is the f32 pattern of +∞. -/
private theorem inf_bits : Ideal.ofBits .f32 0x7F800000#32 = (⊤ : EReal) := by
  simp [Ideal.ofBits, Ideal.ieee]

/-- An extended real whose absolute value max a (−a) is below +∞ is a real: at ⊥ the maximum is −⊥ = ⊤, at ⊤ it is ⊤. -/
private theorem real_of_abs_lt (a : EReal) (h : Ideal.cmp .olt (max a (-a)) (Ideal.ofBits .f32 0x7F800000#32) = 1#1) :
    ∃ r : ℝ, a = (r : EReal) := by
  rw [inf_bits] at h
  have hlt : max a (-a) < ⊤ := of_decide_eq_true ((StableHlo.Predicate.ofBool_eq_one_iff _).1 h)
  induction a using EReal.rec with
  | bot => simp at hlt
  | coe r => exact ⟨r, rfl⟩
  | top => simp at hlt

theorem cat_lt (x : FVec F S32x512x1024 .f32) (cat : IVec S32 32) (w : FVec F S64x1024x1024 .f32) (b : FVec F S64x1024 .f32)
    (h : fn (F := F) x cat w b = fun _ => 1#1) (k : Fin 32) : (cat (ix1 k)).toNat < 64 := by
  have e := congrFun h ix0
  dsimp only [fn, fn_part1] at e
  haveI := sub0
  obtain ⟨-, e4⟩ := IntOp.andi_eq_one.1 e
  obtain ⟨h0, h64⟩ := IntOp.andi_eq_one.1 (Host.reduce_andi_all _ _ _ _ _ e4 (ix1 k))
  exact word_lt (cat (ix1 k)) h0 h64

theorem x_real (x : FVec Ideal S32x512x1024 .f32) (cat : IVec S32 32) (w : FVec Ideal S64x1024x1024 .f32) (b : FVec Ideal S64x1024 .f32)
    (h : fn (F := Ideal) x cat w b = fun _ => 1#1) (i : S32x512x1024.Idx) : ∃ r : ℝ, x i = (r : EReal) := by
  have e := congrFun h ix0
  dsimp only [fn, fn_part1] at e
  haveI := sub0
  obtain ⟨e123, -⟩ := IntOp.andi_eq_one.1 e
  obtain ⟨e12, -⟩ := IntOp.andi_eq_one.1 e123
  obtain ⟨e1, -⟩ := IntOp.andi_eq_one.1 e12
  exact real_of_abs_lt (x i) (Host.reduce_andi_all _ _ _ _ _ e1 i)

theorem w_real (x : FVec Ideal S32x512x1024 .f32) (cat : IVec S32 32) (w : FVec Ideal S64x1024x1024 .f32) (b : FVec Ideal S64x1024 .f32)
    (h : fn (F := Ideal) x cat w b = fun _ => 1#1) (i : S64x1024x1024.Idx) : ∃ r : ℝ, w i = (r : EReal) := by
  have e := congrFun h ix0
  dsimp only [fn, fn_part1] at e
  haveI := sub0
  obtain ⟨e123, -⟩ := IntOp.andi_eq_one.1 e
  obtain ⟨e12, -⟩ := IntOp.andi_eq_one.1 e123
  obtain ⟨-, e2⟩ := IntOp.andi_eq_one.1 e12
  exact real_of_abs_lt (w i) (Host.reduce_andi_all _ _ _ _ _ e2 i)

end Cert.MoE.PreDecode

end
-- ==== Proof.Spec.lean ====
/-
  The function both programs compute, over the extended reals: a linear map chosen per batch row by a category
  word. Row r of the result is row r of x times the [1024 × 1024] matrix the word cat[r] names among the 64 of
  the weight table, plus that category's bias row:

      lin x cat w b (r, p, q) = Σ_k x(r, p, k) · w(cat r, k, q) + b(cat r, q).

  A word in 0 … 63 names its own row; `catRow` is total (the word modulo 64) so that `lin` is a function of
  every table, and `catRow_val` reads it back under the range hypothesis.
-/
import Idealize.ShloMosaic.PureOps.Ideal
import Idealize.ShloMosaic.Lib.ValueIdx

noncomputable section

open scoped BigOperators

namespace Cert.MoE

open Idealize.ShloMosaic Idealize.ShloMosaic.ValueIdx

/-- The row of the weight and bias tables that batch row r's category word names. -/
def catRow (cat : IVec ⟨1, ![32]⟩ 32) (r : Fin 32) : Fin 64 :=
  ⟨(cat (ix1 r)).toNat % 64, Nat.mod_lt _ (by decide)⟩

/-- A word below 64 names its own row. -/
theorem catRow_val (cat : IVec ⟨1, ![32]⟩ 32) (r : Fin 32) (h : (cat (ix1 r)).toNat < 64) :
    (catRow cat r).val = (cat (ix1 r)).toNat := Nat.mod_eq_of_lt h

/-- Entry (r, p, q) of the result: row p of x[r] against column q of the category's matrix, plus the category's
    bias at q. -/
def linAt (x : FVec Ideal ⟨3, ![32, 512, 1024]⟩ .f32) (cat : IVec ⟨1, ![32]⟩ 32)
    (w : FVec Ideal ⟨3, ![64, 1024, 1024]⟩ .f32) (b : FVec Ideal ⟨2, ![64, 1024]⟩ .f32)
    (r : Fin 32) (p : Fin 512) (q : Fin 1024) : EReal :=
  (∑ k : Fin 1024, x (ix3 r p k) * w (ix3 (catRow cat r) k q)) + b (ix2 (catRow cat r) q)

/-- The whole result array. -/
def lin (x : FVec Ideal ⟨3, ![32, 512, 1024]⟩ .f32) (cat : IVec ⟨1, ![32]⟩ 32)
    (w : FVec Ideal ⟨3, ![64, 1024, 1024]⟩ .f32) (b : FVec Ideal ⟨2, ![64, 1024]⟩ .f32) :
    FVec Ideal ⟨3, ![32, 512, 1024]⟩ .f32 :=
  fun i => linAt x cat w b (i 0) (i 1) (i 2)

theorem lin_ix3 (x : FVec Ideal ⟨3, ![32, 512, 1024]⟩ .f32) (cat : IVec ⟨1, ![32]⟩ 32)
    (w : FVec Ideal ⟨3, ![64, 1024, 1024]⟩ .f32) (b : FVec Ideal ⟨2, ![64, 1024]⟩ .f32)
    (r : Fin 32) (p : Fin 512) (q : Fin 1024) : lin x cat w b (ix3 r p q) = linAt x cat w b r p q := rfl

end Cert.MoE

end
-- ==== Proof.RefValue.lean ====
/-
  The reference program's result, entry by entry, is the specification.
-/
import proofs.«414717_j15642270892654_3_alg».proof.Proof.Gen.ReferenceIdeal.Read
import proofs.«414717_j15642270892654_3_alg».proof.Proof.Spec
import Idealize.ShloMosaic.Lib.StableHlo.Predicate

noncomputable section

open scoped BigOperators

namespace Cert.MoE.RefValue

open Cert.ReferenceIdeal Cert.ReferenceIdeal.Gen
open Idealize.ShloMosaic Idealize.ShloMosaic.ValueIdx

/-! ## Words: a category word in 0 … 63 passes the sign test and the clamp unchanged -/

/-- A word below 64 is not negative as a signed word, so the select of "word < 0" keeps the word itself. -/
theorem sel_word (c : BitVec 32) (hc : c.toNat < 64) :
    Scalar.select (IntOp.cmpi .slt c 0#32) (IntOp.addi c 64#32) c = c := by
  have h : ¬ IntOp.cmpi .slt c 0#32 = 1#1 := by
    rw [StableHlo.Predicate.slt_iff_toNat (by omega) (by decide)]
    simp
  rw [eq_zero_of_ne_one h]
  exact select_zero _ _

/-- A word below 64 reads the same signed and unsigned, and the clamp into 0 … 63 leaves it. -/
theorem clamp_word (c : BitVec 32) (hc : c.toNat < 64) : min c.toInt.toNat 63 = c.toNat := by
  rw [StableHlo.Predicate.toInt_eq_toNat_of_lt (by omega)]
  simp only [Int.toNat_natCast]
  omega

/-! ## The two gathers read at an index -/

/-- Entry (r, k, q) of the gathered matrices is the weight table at (row r's start index, read signed and clamped into
    0 … 63; k; q): axis 0 of the table is collapsed and start-indexed, axes 1 and 2 are the offset axes. -/
theorem gather_w {α : Type} (x2 : S64x1024x1024.Idx → α) (idx : IVec S32x1 32) (r : Fin 32) (k q : Fin 1024) :
    Host.gather gather_S64x1024x1024_S32x1_S32x1024x1024_12_0_n_n_0_1_110241024 x2 idx (ix3 r k q)
      = x2 (ix3 (⟨min (idx (ix2 r (0 : Fin 1))).toInt.toNat 63, by omega⟩ : Fin 64) k q) := by
  unfold Host.gather
  congr 1
  funext a
  refine Fin.ext ?_
  match a with
  | ⟨0, _⟩ =>
    show GatherDims.start gather_S64x1024x1024_S32x1_S32x1024x1024_12_0_n_n_0_1_110241024 (ix3 r k q) idx 0
        + GatherDims.batchCoord gather_S64x1024x1024_S32x1_S32x1024x1024_12_0_n_n_0_1_110241024 (ix3 r k q) 0
        + GatherDims.offCoord gather_S64x1024x1024_S32x1_S32x1024x1024_12_0_n_n_0_1_110241024 (ix3 r k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S64x1024x1024_S32x1_S32x1024x1024_12_0_n_n_0_1_110241024.startIndexMap from
      List.mem_singleton.mpr rfl)]
    have hsi : gather_S64x1024x1024_S32x1_S32x1024x1024_12_0_n_n_0_1_110241024.siIdx (ix3 r k q)
        ⟨List.idxOf (0 : Fin 3) gather_S64x1024x1024_S32x1_S32x1024x1024_12_0_n_n_0_1_110241024.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have hk : (1 : Fin 3) ∈ gather_S64x1024x1024_S32x1_S32x1024x1024_12_0_n_n_0_1_110241024.sKept :=
      (GatherDims.mem_sKept _ _).2 ⟨by decide, List.not_mem_nil⟩
    have e : ∀ h, gather_S64x1024x1024_S32x1_S32x1024x1024_12_0_n_n_0_1_110241024.offsetDims[List.idxOf (1 : Fin 3) gather_S64x1024x1024_S32x1_S32x1024x1024_12_0_n_n_0_1_110241024.sKept]'h = (1 : Fin 3) := by decide
    show GatherDims.start gather_S64x1024x1024_S32x1_S32x1024x1024_12_0_n_n_0_1_110241024 (ix3 r k q) idx 1
        + GatherDims.batchCoord gather_S64x1024x1024_S32x1_S32x1024x1024_12_0_n_n_0_1_110241024 (ix3 r k q) 1
        + GatherDims.offCoord gather_S64x1024x1024_S32x1_S32x1024x1024_12_0_n_n_0_1_110241024 (ix3 r k q) 1 = k.val
    rw [GatherDims.batchCoord_eq_zero _ _ _ List.not_mem_nil]
    unfold GatherDims.start GatherDims.offCoord
    rw [dif_neg (by decide), dif_pos hk, e, Nat.zero_add]
  | ⟨2, _⟩ =>
    have hk : (2 : Fin 3) ∈ gather_S64x1024x1024_S32x1_S32x1024x1024_12_0_n_n_0_1_110241024.sKept :=
      (GatherDims.mem_sKept _ _).2 ⟨by decide, List.not_mem_nil⟩
    have e : ∀ h, gather_S64x1024x1024_S32x1_S32x1024x1024_12_0_n_n_0_1_110241024.offsetDims[List.idxOf (2 : Fin 3) gather_S64x1024x1024_S32x1_S32x1024x1024_12_0_n_n_0_1_110241024.sKept]'h = (2 : Fin 3) := by decide
    show GatherDims.start gather_S64x1024x1024_S32x1_S32x1024x1024_12_0_n_n_0_1_110241024 (ix3 r k q) idx 2
        + GatherDims.batchCoord gather_S64x1024x1024_S32x1_S32x1024x1024_12_0_n_n_0_1_110241024 (ix3 r k q) 2
        + GatherDims.offCoord gather_S64x1024x1024_S32x1_S32x1024x1024_12_0_n_n_0_1_110241024 (ix3 r k q) 2 = q.val
    rw [GatherDims.batchCoord_eq_zero _ _ _ List.not_mem_nil]
    unfold GatherDims.start GatherDims.offCoord
    rw [dif_neg (by decide), dif_pos hk, e, Nat.zero_add]

/-- Entry (r, q) of the gathered bias rows is the bias table at (row r's start index, read signed and clamped into
    0 … 63; q): axis 0 of the table is collapsed and start-indexed, axis 1 is the offset axis. -/
theorem gather_b {α : Type} (x3 : S64x1024.Idx → α) (idx : IVec S32x1 32) (r : Fin 32) (q : Fin 1024) :
    Host.gather gather_S64x1024_S32x1_S32x1024_1_0_n_n_0_1_11024 x3 idx (ix2 r q)
      = x3 (ix2 (⟨min (idx (ix2 r (0 : Fin 1))).toInt.toNat 63, by omega⟩ : Fin 64) q) := by
  unfold Host.gather
  congr 1
  funext a
  refine Fin.ext ?_
  match a with
  | ⟨0, _⟩ =>
    show GatherDims.start gather_S64x1024_S32x1_S32x1024_1_0_n_n_0_1_11024 (ix2 r q) idx 0
        + GatherDims.batchCoord gather_S64x1024_S32x1_S32x1024_1_0_n_n_0_1_11024 (ix2 r q) 0
        + GatherDims.offCoord gather_S64x1024_S32x1_S32x1024_1_0_n_n_0_1_11024 (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S64x1024_S32x1_S32x1024_1_0_n_n_0_1_11024.startIndexMap from List.mem_singleton.mpr rfl)]
    have hsi : gather_S64x1024_S32x1_S32x1024_1_0_n_n_0_1_11024.siIdx (ix2 r q)
        ⟨List.idxOf (0 : Fin 2) gather_S64x1024_S32x1_S32x1024_1_0_n_n_0_1_11024.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have hk : (1 : Fin 2) ∈ gather_S64x1024_S32x1_S32x1024_1_0_n_n_0_1_11024.sKept :=
      (GatherDims.mem_sKept _ _).2 ⟨by decide, List.not_mem_nil⟩
    have e : ∀ h, gather_S64x1024_S32x1_S32x1024_1_0_n_n_0_1_11024.offsetDims[List.idxOf (1 : Fin 2) gather_S64x1024_S32x1_S32x1024_1_0_n_n_0_1_11024.sKept]'h = (1 : Fin 2) := by decide
    show GatherDims.start gather_S64x1024_S32x1_S32x1024_1_0_n_n_0_1_11024 (ix2 r q) idx 1
        + GatherDims.batchCoord gather_S64x1024_S32x1_S32x1024_1_0_n_n_0_1_11024 (ix2 r q) 1
        + GatherDims.offCoord gather_S64x1024_S32x1_S32x1024_1_0_n_n_0_1_11024 (ix2 r q) 1 = q.val
    rw [GatherDims.batchCoord_eq_zero _ _ _ List.not_mem_nil]
    unfold GatherDims.start GatherDims.offCoord
    rw [dif_neg (by decide), dif_pos hk, e, Nat.zero_add]

/-! ## The start indices: under the range hypothesis the select passes the category word through -/

/-- The first gather's start index for row r is row r's category word. -/
theorem start_w (cat : IVec S32 32) (r : Fin 32) (h : (cat (ix1 r)).toNat < 64) :
    Read.val_main_v5 (F := Ideal) cat (ix2 r (0 : Fin 1)) = cat (ix1 r) := by
  rw [Read.val_main_v5_apply]
  have hi : Read.idx_main_v5 (ix2 r (0 : Fin 1)) = ix1 r := funext fun a => Fin.ext (by match a with | ⟨0, _⟩ => rfl)
  rw [hi, Read.val_main_v4_apply, Read.val_main_v1_apply, Read.val_main_v3_apply, Read.val_main_v0_apply,
    Read.val_main_v2_apply, Read.val_main_c_apply, Read.val_main_c_0_apply]
  exact sel_word _ h

/-- The second gather's start index for row r is row r's category word. -/
theorem start_b (cat : IVec S32 32) (r : Fin 32) (h : (cat (ix1 r)).toNat < 64) :
    Read.val_main_v12 (F := Ideal) cat (ix2 r (0 : Fin 1)) = cat (ix1 r) := by
  rw [Read.val_main_v12_apply]
  have hi : Read.idx_main_v12 (ix2 r (0 : Fin 1)) = ix1 r := funext fun a => Fin.ext (by match a with | ⟨0, _⟩ => rfl)
  rw [hi, Read.val_main_v11_apply, Read.val_main_v8_apply, Read.val_main_v10_apply, Read.val_main_v7_apply,
    Read.val_main_v9_apply, Read.val_main_c_1_apply, Read.val_main_c_2_apply]
  exact sel_word _ h

/-! ## The gathered tables under the range hypothesis: row r reads its category's row -/

/-- Entry (r, k, q) of the gathered matrices is the weight table's entry (k, q) of row r's category. -/
theorem read_w (cat : IVec S32 32) (w : FVec Ideal S64x1024x1024 .f32) (r : Fin 32) (k q : Fin 1024)
    (h : (cat (ix1 r)).toNat < 64) :
    Read.val_main_v6 (F := Ideal) cat w (ix3 r k q) = w (ix3 (Cert.MoE.catRow cat r) k q) := by
  unfold Read.val_main_v6
  refine (gather_w w _ r k q).trans ?_
  congr 1
  funext a
  match a with
  | ⟨0, _⟩ =>
    refine Fin.ext ?_
    show min (Read.val_main_v5 (F := Ideal) cat (ix2 r (0 : Fin 1))).toInt.toNat 63 = (Cert.MoE.catRow cat r).val
    rw [start_w cat r h, clamp_word _ h, Cert.MoE.catRow_val cat r h]
  | ⟨1, _⟩ => rfl
  | ⟨2, _⟩ => rfl

/-- Entry (r, q) of the gathered bias rows is the bias table's entry q of row r's category. -/
theorem read_b (cat : IVec S32 32) (b : FVec Ideal S64x1024 .f32) (r : Fin 32) (q : Fin 1024)
    (h : (cat (ix1 r)).toNat < 64) :
    Read.val_main_v13 (F := Ideal) cat b (ix2 r q) = b (ix2 (Cert.MoE.catRow cat r) q) := by
  unfold Read.val_main_v13
  refine (gather_b b _ r q).trans ?_
  congr 1
  funext a
  match a with
  | ⟨0, _⟩ =>
    refine Fin.ext ?_
    show min (Read.val_main_v12 (F := Ideal) cat (ix2 r (0 : Fin 1))).toInt.toNat 63 = (Cert.MoE.catRow cat r).val
    rw [start_b cat r h, clamp_word _ h, Cert.MoE.catRow_val cat r h]
  | ⟨1, _⟩ => rfl

/-! ## The result -/

theorem ref_eq (x : FVec Ideal S32x512x1024 .f32) (cat : IVec S32 32) (w : FVec Ideal S64x1024x1024 .f32)
    (b : FVec Ideal S64x1024 .f32) (hcat : ∀ k : Fin 32, (cat (ix1 k)).toNat < 64) :
    Cert.ReferenceIdeal.Read.val_main_v17 (F := Ideal) x cat w b = Cert.MoE.lin x cat w b := by
  funext i
  obtain ⟨r, p, q, rfl⟩ : ∃ (r : Fin 32) (p : Fin 512) (q : Fin 1024), i = ix3 r p q := ⟨i 0, i 1, i 2, eq_ix3 i⟩
  have hr := hcat r
  refine Eq.trans ?_ (Cert.MoE.lin_ix3 x cat w b r p q).symm
  rw [Read.val_main_v17_apply, Read.val_main_v14_apply, Read.val_main_v16_apply, Read.val_main_v15_apply]
  unfold Cert.MoE.linAt
  have hb : Read.idx_main_v15 (Read.idx_main_v16 (ix3 r p q)) = ix2 r q :=
    funext fun a => Fin.ext (by match a with | ⟨0, _⟩ => rfl | ⟨1, _⟩ => rfl)
  rw [hb, read_b cat b r q hr]
  show (∑ k : Fin 1024, _) + _ = _
  congr 1
  refine Finset.sum_congr rfl fun k _ => ?_
  have hl : Read.lidx_main_v14 (ix3 r p q) k = ix3 r p k :=
    funext fun a => Fin.ext (by match a with | ⟨0, _⟩ => rfl | ⟨1, _⟩ => rfl | ⟨2, _⟩ => rfl)
  have hri : Read.ridx_main_v14 (ix3 r p q) k = ix3 r k q :=
    funext fun a => Fin.ext (by match a with | ⟨0, _⟩ => rfl | ⟨1, _⟩ => rfl | ⟨2, _⟩ => rfl)
  rw [hl, hri, read_w cat w r k q hr]

end Cert.MoE.RefValue

end
-- ==== Proof.Body.lean ====
/-
  What the kernel body leaves in its output block: one store of the whole [1, 512, 1024] block, whose value is the
  body's arithmetic of the three input blocks.
-/
import proofs.«414717_j15642270892654_3_alg».proof.Proof.Gen.KernelIdeal.Frame
import Idealize.ShloMosaic.Lib.Pipeline.Value

set_option maxRecDepth 16384

noncomputable section

namespace Cert.MoE.Body

open Cert.KernelIdeal Cert.KernelIdeal.Gen
open Idealize.ShloMosaic Idealize.ShloMosaic.TcCoe Idealize.ShloMosaic.Tactic Idealize.SL.Sem

variable {F : FTy → Type} [FloatOps F]

theorem hz3 : (![0, 0, 0] : Fin 3 → Nat) = fun _ => 0 := by
  funext a; match a with | ⟨0, _⟩ => rfl | ⟨1, _⟩ => rfl | ⟨2, _⟩ => rfl

/-- The output block after the body is the body's arithmetic of the three input blocks, whatever staging
    buffers the blocks sit in. -/
theorem out_eq (c : Dev nD) (i : grid0.Coords) (arg3 : Memref sig .tc .vmem S1x512x1024 .f32) (harg3 : arg3.IsWhole)
    (arg4 : Memref sig .tc .vmem S1x1024x1024 .f32) (harg4 : arg4.IsWhole) (arg5 : Memref sig .tc .vmem S1x1x1024 .f32) (harg5 : arg5.IsWhole)
    (arg6 : Memref sig .tc .vmem S1x512x1024 .f32) (harg6 : arg6.IsWhole)
    (x0 : Vec F S1x512x1024 .f32) (x1 : Vec F S1x1024x1024 .f32) (x2 : Vec F S1x1x1024 .f32)
    (xt0 : TbBuf0 (F := F) c tbM0_0) (xt1 : TbBuf0 (F := F) c tbM0_1) :
    out0_A_3 c i arg3 harg3 arg4 harg4 arg5 harg5 arg6 harg6 x0 x1 x2 xt0 xt1 = k0_pay1 x0 x1 x2 := by
  unfold out0_A_3
  rw [View.read_writes_eq_canon _ _ _ (cover0_A_3 c i arg3 harg3 arg4 harg4 arg5 harg5 arg6 harg6 x0 x1 x2 xt0 xt1)]
  unfold kernelRun0_A
  dsimp only
  rw [View.canon_unit_zero (S := S1x512x1024) hz3]
  simp only [View.readAt_eq_ld, Memref.IsWhole.read_unread, View.ld_unit_zero (S := S1x512x1024) hz3,
    View.ld_unit_zero (S := S1x1024x1024) hz3, View.ld_unit_zero (S := S1x1x1024) hz3]

end Cert.MoE.Body

end
-- ==== Proof.Payload.lean ====
/-
  One output block of the kernel, entry by entry, over the extended reals.
-/
import proofs.«414717_j15642270892654_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MoE.Payload

open Cert.KernelIdeal Cert.KernelIdeal.Gen
open Idealize.ShloMosaic Idealize.ShloMosaic.ValueIdx

/-! ## The arithmetic: two of the three contraction sums vanish -/

/-- A real number minus itself is zero in the extended reals. -/
theorem sub_self_of_real {x : EReal} (h : ∃ r : ℝ, x = (r : EReal)) : x - x = 0 := by
  obtain ⟨r, rfl⟩ := h
  rw [← EReal.coe_sub, sub_self, EReal.coe_zero]

/-- Over real-valued factors, the sum of products plus the two sums whose one factor is a difference of a
    number with itself is the sum of products. -/
theorem sum_add_vanishing {ι : Type} [Fintype ι] (f g : ι → EReal)
    (hf : ∀ k, ∃ r : ℝ, f k = (r : EReal)) (hg : ∀ k, ∃ r : ℝ, g k = (r : EReal)) :
    (∑ k, f k * g k) + (∑ k, f k * (g k - g k)) + (∑ k, (f k - f k) * g k) = ∑ k, f k * g k := by
  have h1 : ∑ k, f k * (g k - g k) = 0 :=
    Finset.sum_eq_zero fun k _ => by rw [sub_self_of_real (hg k), mul_zero]
  have h2 : ∑ k, (f k - f k) * g k = 0 :=
    Finset.sum_eq_zero fun k _ => by rw [sub_self_of_real (hf k), zero_mul]
  rw [h1, h2, add_zero, add_zero]

/-! ## The block product read at an entry -/

/-- The left operand's row coordinate is the output's row. -/
theorem lhs_axis0 (i : S512x1024.Idx) (c : dot_S512x1024_S1024x1024_S512x1024_1_0_0_1_n_n.contr.Idx) :
    (dot_S512x1024_S1024x1024_S512x1024_1_0_0_1_n_n.lhsIdx i c 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The left operand's column coordinate is the contraction position. -/
theorem lhs_axis1 (i : S512x1024.Idx) (c : dot_S512x1024_S1024x1024_S512x1024_1_0_0_1_n_n.contr.Idx) :
    (dot_S512x1024_S1024x1024_S512x1024_1_0_0_1_n_n.lhsIdx i c 1).val = (c ⟨0, by decide⟩).val :=
  dot_S512x1024_S1024x1024_S512x1024_1_0_0_1_n_n.lhsIdx_val_of_single rfl i c
/-- The right operand's row coordinate is the contraction position. -/
theorem rhs_axis0 (i : S512x1024.Idx) (c : dot_S512x1024_S1024x1024_S512x1024_1_0_0_1_n_n.contr.Idx) :
    (dot_S512x1024_S1024x1024_S512x1024_1_0_0_1_n_n.rhsIdx i c 0).val = (c ⟨0, by decide⟩).val :=
  dot_S512x1024_S1024x1024_S512x1024_1_0_0_1_n_n.rhsIdx_val_of_single rfl i c
/-- The right operand's column coordinate is the output's column. -/
theorem rhs_axis1 (i : S512x1024.Idx) (c : dot_S512x1024_S1024x1024_S512x1024_1_0_0_1_n_n.contr.Idx) :
    (dot_S512x1024_S1024x1024_S512x1024_1_0_0_1_n_n.rhsIdx i c 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block product into the zero block, at entry (p, q): the sum over the contraction coordinate of the
    left row's entries times the right column's. -/
theorem matmul_zero_apply {φ₁ φ₂ : FTy} (a : FVec Ideal S512x1024 φ₁) (b : FVec Ideal S1024x1024 φ₂) (p : Fin 512) (q : Fin 1024) :
    matmul dot_S512x1024_S1024x1024_S512x1024_1_0_0_1_n_n none a b (constant (F := Ideal) S512x1024 .f32 0x00000000#32) (ix2 p q)
      = ∑ k : Fin 1024, a (ix2 p k) * b (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-! ## The output block at an entry -/

theorem pay_apply (x0 : Vec Ideal S1x512x1024 .f32) (x1 : Vec Ideal S1x1024x1024 .f32) (x2 : Vec Ideal S1x1x1024 .f32)
    (hx0 : ∀ i, ∃ r : ℝ, x0 i = (r : EReal)) (hx1 : ∀ i, ∃ r : ℝ, x1 i = (r : EReal))
    (p : Fin 512) (q : Fin 1024) :
    k0_pay1 (F := Ideal) x0 x1 x2 (ix3 (0 : Fin 1) p q)
      = (∑ k : Fin 1024, x0 (ix3 (0 : Fin 1) p k) * x1 (ix3 (0 : Fin 1) k q)) + x2 (ix3 (0 : Fin 1) (0 : Fin 1) q) := by
  unfold k0_pay1
  refine (shapeCast_ab_1ab_apply _ _ (0 : Fin 1) p q).trans ?_
  rw [addf_apply, addf_apply, addf_apply, matmul_zero_apply, matmul_zero_apply, matmul_zero_apply,
    broadcastTo_1b_ab_apply, shapeCast_1ab_ab_apply x2 _ (0 : Fin 1) q]
  simp only [truncf_apply, subf_apply, shapeCast_1ab_ab_apply]
  rw [sum_add_vanishing (fun k : Fin 1024 => x0 (ix3 (0 : Fin 1) p k)) (fun k : Fin 1024 => x1 (ix3 (0 : Fin 1) k q))
    (fun k => hx0 _) (fun k => hx1 _)]

end Cert.MoE.Payload

end
-- ==== Proof.IndexMaps.lean ====
/-
  The four index maps of the kernel's windows, in closed form, at ANY contents of the two tables.

  The grid has one axis of 32 steps. At step i each map reads one table word — the row table for the x and result
  windows, the category table for the weight and bias windows — and returns (word, 0, 0).
-/
import proofs.«414717_j15642270892654_3_alg».proof.Proof.Gen.KernelIdeal
import Idealize.ShloMosaic.Lib.SortFacts

set_option maxRecDepth 16384

noncomputable section

namespace Cert.KernelIdeal.IndexMaps

open Cert.KernelIdeal Cert.KernelIdeal.Gen
open Idealize.ShloMosaic Idealize.SL.Sem

variable {F : FTy → Type} [FloatOps F]

/-! ## The index maps in closed form -/

/-- The grid step of a setting of the grid's one coordinate. -/
def step (i : grid0.Coords) : Fin 32 := ⟨(i 0).val, (i 0).isLt⟩

/-- The one word a unit rectangle of a 32-entry table at offset (i 0) holds is entry (i 0). -/
theorem word_idx (i : grid0.Coords) (off : Fin 1 → Nat) (hoff : off 0 = (i 0).val)
    (inb : ∀ a, off a + S1.size a ≤ S32.size a) (h1 : 0 < S1.numel) :
    (Rect.unit (s := S32) off S1.size inb).emb (Shape.Idx.first h1) = Shape.Idx.ofFin (step i) := by
  funext a
  match a with
  | ⟨0, _⟩ =>
    apply Fin.ext
    rw [Rect.emb_apply]
    have h0 : (Shape.Idx.first h1 (0 : Fin 1)).val < 1 := (Shape.Idx.first h1 (0 : Fin 1)).isLt
    show off 0 + 1 * (Shape.Idx.first h1 (0 : Fin 1)).val = (i 0).val
    omega

/-- The step, as the 32-bit word the index maps compute, is the step. -/
theorem off_val (i : grid0.Coords) : (Scalar.indexCast (BitVec.ofNat 32 (i 0).val)).toNat = (i 0).val := by
  have h : (i 0).val < 32 := (i 0).isLt
  show (BitVec.ofNat 32 (i 0).val).toNat = _
  rw [BitVec.toNat_ofNat]; omega

theorem transform_0_eq (pf : pre0.Contents (Elt F)) (i : grid0.Coords) :
    cc0_transform_0 k0_off1_inb numel1_S1 pf i = ![(pf 0 (Shape.Idx.ofFin (step i))).toNat, 0, 0] := by
  unfold cc0_transform_0
  dsimp only
  exact congrArg (fun z : S32.Idx => (![(pf 0 z).toNat, 0, 0] : Fin 3 → Nat)) (word_idx i _ (off_val i) _ _)

theorem transform_1_eq (pf : pre0.Contents (Elt F)) (i : grid0.Coords) :
    cc0_transform_1 k0_off1_inb numel1_S1 pf i = ![(pf 1 (Shape.Idx.ofFin (step i))).toNat, 0, 0] := by
  unfold cc0_transform_1
  dsimp only
  exact congrArg (fun z : S32.Idx => (![(pf 1 z).toNat, 0, 0] : Fin 3 → Nat)) (word_idx i _ (off_val i) _ _)

theorem transform_2_eq (pf : pre0.Contents (Elt F)) (i : grid0.Coords) :
    cc0_transform_2 k0_off1_inb numel1_S1 pf i = ![(pf 1 (Shape.Idx.ofFin (step i))).toNat, 0, 0] := by
  unfold cc0_transform_2
  dsimp only
  exact congrArg (fun z : S32.Idx => (![(pf 1 z).toNat, 0, 0] : Fin 3 → Nat)) (word_idx i _ (off_val i) _ _)

theorem transform_3_eq (pf : pre0.Contents (Elt F)) (i : grid0.Coords) :
    cc0_transform_3 k0_off1_inb numel1_S1 pf i = ![(pf 0 (Shape.Idx.ofFin (step i))).toNat, 0, 0] := by
  unfold cc0_transform_3
  dsimp only
  exact congrArg (fun z : S32.Idx => (![(pf 0 z).toNat, 0, 0] : Fin 3 → Nat)) (word_idx i _ (off_val i) _ _)

end Cert.KernelIdeal.IndexMaps

end
-- ==== Proof.Blocks.lean ====
/-
  The blocks the pipeline moves, read at an index, at ANY contents of the two tables.

  Each window's block index at a grid point is (word, 0, 0), the word read off one of the tables at the point's
  step. A window whose block index at a point is (r, 0, 0) moves, of its array, the slab with leading coordinate r:
  entry (0, p, k) of the block is entry (r, p, k) of the array.
-/
import proofs.«414717_j15642270892654_3_alg».proof.Proof.Gen.KernelIdeal.Frame
import proofs.«414717_j15642270892654_3_alg».proof.Proof.IndexMaps
import Idealize.ShloMosaic.Lib.Pipeline.Value
import Idealize.ShloMosaic.Lib.ValueIdx
import Idealize.ShloMosaic.Lib.SortFacts

set_option maxRecDepth 16384

noncomputable section

namespace Cert.KernelIdeal.Blocks

open Cert.KernelIdeal Cert.KernelIdeal.Gen Cert.KernelIdeal.IndexMaps
open Idealize.ShloMosaic Idealize.ShloMosaic.TcCoe Idealize.SL.Sem
open Idealize.ShloMosaic.ValueIdx

variable {F : FTy → Type} [FloatOps F]

/-! ## Each window's block index at a point, at admissible contents `a` equal to `pf` -/

theorem index0_of (a : (pcfg0 (F := F)).Adm) (pf : pre0.Contents (Elt F)) (hpf : a.1 = pf) (t : Fin (cfg0 a).N) :
    ((cfg0 a).win 0).index t = ![(pf 0 (Shape.Idx.ofFin (step (grid0.coords t)))).toNat, 0, 0] := by
  subst hpf
  exact transform_0_eq a.1 (grid0.coords t)

theorem index1_of (a : (pcfg0 (F := F)).Adm) (pf : pre0.Contents (Elt F)) (hpf : a.1 = pf) (t : Fin (cfg0 a).N) :
    ((cfg0 a).win 1).index t = ![(pf 1 (Shape.Idx.ofFin (step (grid0.coords t)))).toNat, 0, 0] := by
  subst hpf
  exact transform_1_eq a.1 (grid0.coords t)

theorem index2_of (a : (pcfg0 (F := F)).Adm) (pf : pre0.Contents (Elt F)) (hpf : a.1 = pf) (t : Fin (cfg0 a).N) :
    ((cfg0 a).win 2).index t = ![(pf 1 (Shape.Idx.ofFin (step (grid0.coords t)))).toNat, 0, 0] := by
  subst hpf
  exact transform_2_eq a.1 (grid0.coords t)

theorem index3_of (a : (pcfg0 (F := F)).Adm) (pf : pre0.Contents (Elt F)) (hpf : a.1 = pf) (t : Fin (cfg0 a).N) :
    ((cfg0 a).win 3).index t = ![(pf 0 (Shape.Idx.ofFin (step (grid0.coords t)))).toNat, 0, 0] := by
  subst hpf
  exact transform_3_eq a.1 (grid0.coords t)

/-! ## A block read at an index -/

/-- Window 0 (x) at a point whose block index is (r, 0, 0): slab r of the array. -/
theorem blk0_read (a : (pcfg0 (F := F)).Adm) (t : Fin (cfg0 a).N) (A : S32x512x1024.Idx → Elt F .f32) (r : Fin 32)
    (hr : ((cfg0 a).win 0).index t = ![r.val, 0, 0]) (y : S1x512x1024.Idx) :
    (((cfg0 a).win 0).blk t).view.read (Elt F) A y = A (ix3 r (y 1) (y 2)) := by
  show A ((((cfg0 a).win 0).blk t).view.emb y) = A (ix3 r (y 1) (y 2))
  refine congrArg A (funext fun d => Fin.ext ?_)
  have h0 : (y 0).val < 1 := (y 0).isLt
  match d with
  | ⟨0, _⟩ =>
    show ((cfg0 a).win 0).index t (0 : Fin 3) * 1 + 1 * (y 0).val = r.val
    rw [hr]; show r.val * 1 + 1 * (y 0).val = r.val; omega
  | ⟨1, _⟩ =>
    show ((cfg0 a).win 0).index t (1 : Fin 3) * 512 + 1 * (y 1).val = (y 1).val
    rw [hr]; show 0 * 512 + 1 * (y 1).val = (y 1).val; omega
  | ⟨2, _⟩ =>
    show ((cfg0 a).win 0).index t (2 : Fin 3) * 1024 + 1 * (y 2).val = (y 2).val
    rw [hr]; show 0 * 1024 + 1 * (y 2).val = (y 2).val; omega

/-- Window 1 (weight) at a point whose block index is (g, 0, 0): matrix g of the table. -/
theorem blk1_read (a : (pcfg0 (F := F)).Adm) (t : Fin (cfg0 a).N) (A : S64x1024x1024.Idx → Elt F .f32) (g : Fin 64)
    (hg : ((cfg0 a).win 1).index t = ![g.val, 0, 0]) (y : S1x1024x1024.Idx) :
    (((cfg0 a).win 1).blk t).view.read (Elt F) A y = A (ix3 g (y 1) (y 2)) := by
  show A ((((cfg0 a).win 1).blk t).view.emb y) = A (ix3 g (y 1) (y 2))
  refine congrArg A (funext fun d => Fin.ext ?_)
  have h0 : (y 0).val < 1 := (y 0).isLt
  match d with
  | ⟨0, _⟩ =>
    show ((cfg0 a).win 1).index t (0 : Fin 3) * 1 + 1 * (y 0).val = g.val
    rw [hg]; show g.val * 1 + 1 * (y 0).val = g.val; omega
  | ⟨1, _⟩ =>
    show ((cfg0 a).win 1).index t (1 : Fin 3) * 1024 + 1 * (y 1).val = (y 1).val
    rw [hg]; show 0 * 1024 + 1 * (y 1).val = (y 1).val; omega
  | ⟨2, _⟩ =>
    show ((cfg0 a).win 1).index t (2 : Fin 3) * 1024 + 1 * (y 2).val = (y 2).val
    rw [hg]; show 0 * 1024 + 1 * (y 2).val = (y 2).val; omega

/-- Window 2 (bias, with its unit middle axis) at a point whose block index is (g, 0, 0): row g of the table. -/
theorem blk2_read (a : (pcfg0 (F := F)).Adm) (t : Fin (cfg0 a).N) (A : S64x1x1024.Idx → Elt F .f32) (g : Fin 64)
    (hg : ((cfg0 a).win 2).index t = ![g.val, 0, 0]) (y : S1x1x1024.Idx) :
    (((cfg0 a).win 2).blk t).view.read (Elt F) A y = A (ix3 g (y 1) (y 2)) := by
  show A ((((cfg0 a).win 2).blk t).view.emb y) = A (ix3 g (y 1) (y 2))
  refine congrArg A (funext fun d => Fin.ext ?_)
  have h0 : (y 0).val < 1 := (y 0).isLt
  match d with
  | ⟨0, _⟩ =>
    show ((cfg0 a).win 2).index t (0 : Fin 3) * 1 + 1 * (y 0).val = g.val
    rw [hg]; show g.val * 1 + 1 * (y 0).val = g.val; omega
  | ⟨1, _⟩ =>
    show ((cfg0 a).win 2).index t (1 : Fin 3) * 1 + 1 * (y 1).val = (y 1).val
    rw [hg]; show 0 * 1 + 1 * (y 1).val = (y 1).val; omega
  | ⟨2, _⟩ =>
    show ((cfg0 a).win 2).index t (2 : Fin 3) * 1024 + 1 * (y 2).val = (y 2).val
    rw [hg]; show 0 * 1024 + 1 * (y 2).val = (y 2).val; omega

/-- Window 3 (the result) at a point whose block index is (r, 0, 0): slab r of the array. -/
theorem blk3_read (a : (pcfg0 (F := F)).Adm) (t : Fin (cfg0 a).N) (A : S32x512x1024.Idx → Elt F .f32) (r : Fin 32)
    (hr : ((cfg0 a).win 3).index t = ![r.val, 0, 0]) (y : S1x512x1024.Idx) :
    (((cfg0 a).win 3).blk t).view.read (Elt F) A y = A (ix3 r (y 1) (y 2)) := by
  show A ((((cfg0 a).win 3).blk t).view.emb y) = A (ix3 r (y 1) (y 2))
  refine congrArg A (funext fun d => Fin.ext ?_)
  have h0 : (y 0).val < 1 := (y 0).isLt
  match d with
  | ⟨0, _⟩ =>
    show ((cfg0 a).win 3).index t (0 : Fin 3) * 1 + 1 * (y 0).val = r.val
    rw [hr]; show r.val * 1 + 1 * (y 0).val = r.val; omega
  | ⟨1, _⟩ =>
    show ((cfg0 a).win 3).index t (1 : Fin 3) * 512 + 1 * (y 1).val = (y 1).val
    rw [hr]; show 0 * 512 + 1 * (y 1).val = (y 1).val; omega
  | ⟨2, _⟩ =>
    show ((cfg0 a).win 3).index t (2 : Fin 3) * 1024 + 1 * (y 2).val = (y 2).val
    rw [hr]; show 0 * 1024 + 1 * (y 2).val = (y 2).val; omega

end Cert.KernelIdeal.Blocks

end
-- ==== Proof.Tables.lean ====
/-
  The two prefetched tables of the kernel, as functions of the category words.

  The first table is the stable argsort of the 32 category words: a permutation σ of the 32 batch rows (the grid
  visits the rows in the order σ 0, σ 1, …). The second is the category words carried along that order: entry t is
  the word of row σ t. Each block the pipeline moves is named by one of these entries — a row of x and of the
  result by σ t, a matrix of the weight table and a row of the bias table by the word of row σ t — so every block
  lies inside its array as soon as every word is in 0 … 63.
-/
import proofs.«414717_j15642270892654_3_alg».proof.Proof.Gen.KernelIdeal.Frame.Runs
import Idealize.ShloMosaic.Lib.SortFacts
import Idealize.ShloMosaic.Lib.StableHlo.Predicate
import Idealize.ShloMosaic.Lib.StableHlo.Run
import Idealize.ShloMosaic.Lib.ValueIdx

set_option maxRecDepth 16384

noncomputable section

namespace Cert.KernelIdeal.Tables

open Cert.KernelIdeal Cert.KernelIdeal.Gen
open Idealize.ShloMosaic Idealize.ShloMosaic.TcCoe Idealize.SL.Sem Idealize.ShloMosaic.StableHlo
open Idealize.ShloMosaic.ValueIdx

/-! ## A two-operand sort of a rank-1 table reads both operands through one self-map of the positions -/

/-- Position k sorts before position k': the comparator on the pairs of the two operands' entries. -/
def pairBefore {n : Nat} {α β : Type} (cmp : α × β → α × β → BitVec 1)
    (x : (⟨1, ![n]⟩ : Shape).Idx → α) (y : (⟨1, ![n]⟩ : Shape).Idx → β) : Fin n → Fin n → Bool := fun k k' =>
  cmp (x (Shape.Idx.ofFin k), y (Shape.Idx.ofFin k)) (x (Shape.Idx.ofFin k'), y (Shape.Idx.ofFin k')) == 1#1

theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j = y (Shape.Idx.ofFin (sortedFrom (pairBefore cmp x y) (j 0))) := by
  unfold Host.sort2 pairBefore
  simp

variable {F : FTy → Type} [FloatOps F]
variable (m : (ℓ : Loc nD τ sig) → Buf (Elt F) ℓ)

/-- The category words (on the program's one device). -/
abbrev cat0 : IVec S32 32 := m (((0 : Dev nD) : Thread nD τ).loc main_arg1)

theorem tbl0_eq : tbl m 0 = (Host.sort2 S32 0 comparator_i32_i32_d0 (cat0 m) (iotaInDim S32 32 0)).2 := by
  unfold tbl
  show V m 0 main_v1 = _
  unfold V
  simp only [hostOps0, hostOps0_1, hostOps0_2, List.flatten_cons, List.flatten_nil, List.append_nil, List.cons_append, List.nil_append]
  after_results
  rfl

/-- The first table, typed by its literal shape. -/
abbrev perm : IVec S32 32 := tbl m 0

theorem tbl1_eq : tbl m 1 = Host.gather gather_S32_S32x1_S32_n_0_n_n_0_1_1 (cat0 m)
    (broadcastInDim S32x1 ![0] bcast_S32_S32x1_0
      (select (cmpi .slt (perm m) (broadcastInDim S32 ![] bcast_S_S32 (constantI S_ 32 0#32)))
        (addi (perm m) (broadcastInDim S32 ![] bcast_S_S32 (constantI S_ 32 32#32))) (perm m))) := by
  unfold perm
  rw [tbl0_eq]
  unfold tbl
  show V m 0 main_v8 = _
  unfold V
  simp only [hostOps0, hostOps0_1, hostOps0_2, List.flatten_cons, List.flatten_nil, List.append_nil, List.cons_append, List.nil_append]
  after_results
  rfl

/-! ## The visiting order -/

/-- The batch row the grid visits at step t: the stable argsort of the words (compared as pairs with their
    positions). -/
def σ (x : IVec S32 32) : Fin 32 → Fin 32 := sortedFrom (pairBefore comparator_i32_i32_d0 x (iotaInDim S32 32 0))

theorem σ_injective (x : IVec S32 32) : Function.Injective (σ x) := sortedFrom_injective _
theorem σ_surjective (x : IVec S32 32) : Function.Surjective (σ x) := sortedFrom_surjective _

/-- Entry t of the first table is the row σ t, as a word. -/
theorem tbl0_apply (p : Fin 32) : tbl m 0 (Shape.Idx.ofFin p) = BitVec.ofNat 32 (σ (cat0 m) p).val := by
  rw [tbl0_eq, sort2_snd_rank1, Shape.Idx.ofFin_zero]
  unfold σ
  exact StableHlo.Predicate.iota_apply _

-- all that is used of σ below: it is a bijection of the 32 rows, and the first table lists it
attribute [irreducible] σ

/-- A row number below 32, as a 32-bit word, is not negative (the wrap of a negative index is not taken), and its
    signed value, clamped into 0 … 31, is the row number. -/
theorem row_word (k : Fin 32) :
    min (Scalar.select (IntOp.cmpi .slt (BitVec.ofNat 32 k.val) 0#32) (IntOp.addi (BitVec.ofNat 32 k.val) 32#32)
      (BitVec.ofNat 32 k.val)).toInt.toNat (32 - 1) = k.val := by
  have hk := k.isLt
  have hn : ¬ IntOp.cmpi .slt (BitVec.ofNat 32 k.val) 0#32 = 1#1 := by
    rw [StableHlo.Predicate.slt_iff_toNat (by rw [BitVec.toNat_ofNat]; omega) (by decide)]
    exact Nat.not_lt_zero _
  unfold Scalar.select
  rw [if_neg (show ¬ _ = (1 : BitVec 1) from hn), StableHlo.Predicate.toInt_ofNat_small k.val (by omega), Int.toNat_natCast]
  omega

/-- Words carried along an order: where table T holds, at position p, the row number k, the gather of the words
    C at T (negative entries wrapped, every entry clamped into 0 … 31) holds at p the word of row k. -/
theorem carried (C T : IVec S32 32) (p k : Fin 32) (h0 : T (Shape.Idx.ofFin p) = BitVec.ofNat 32 k.val) :
    Host.gather gather_S32_S32x1_S32_n_0_n_n_0_1_1 C
      (broadcastInDim S32x1 ![0] bcast_S32_S32x1_0
        (select (cmpi .slt T (broadcastInDim S32 ![] bcast_S_S32 (constantI S_ 32 0#32)))
          (addi T (broadcastInDim S32 ![] bcast_S_S32 (constantI S_ 32 32#32))) T)) (Shape.Idx.ofFin p)
      = C (Shape.Idx.ofFin k) := by
  rw [StableHlo.Predicate.gather_take _ rfl rfl rfl rfl _ _ p (by decide)]
  refine congrArg (fun k => C (Shape.Idx.ofFin k)) (Fin.ext ?_)
  rw [Fin.val_mk, StableHlo.Predicate.bcast_col1]
  show min (Scalar.select (IntOp.cmpi .slt (T (Shape.Idx.ofFin p)) 0#32) (IntOp.addi (T (Shape.Idx.ofFin p)) 32#32)
    (T (Shape.Idx.ofFin p))).toInt.toNat (32 - 1) = k.val
  rw [h0]
  exact row_word k

/-- Entry t of the second table is the category word of row σ t. -/
theorem tbl1_apply (p : Fin 32) : tbl m 1 (Shape.Idx.ofFin p) = cat0 m (Shape.Idx.ofFin (σ (cat0 m) p)) := by
  rw [tbl1_eq]
  exact carried (cat0 m) (perm m) p (σ (cat0 m) p) (tbl0_apply m p)

end Cert.KernelIdeal.Tables

end
-- ==== Proof.Admissible.lean ====
/-
  Every block the pipeline moves lies inside its array as soon as every category word is in 0 … 63: the x and
  result windows move slab σ t of a [32, 512, 1024] array with σ t < 32, the weight and bias windows move the slab
  named by the word of row σ t, which is below 64.
-/
import proofs.«414717_j15642270892654_3_alg».proof.Proof.Tables
import proofs.«414717_j15642270892654_3_alg».proof.Proof.IndexMaps

set_option maxRecDepth 16384

noncomputable section

namespace Cert.KernelIdeal.Admissible

open Cert.KernelIdeal Cert.KernelIdeal.Gen Cert.KernelIdeal.Tables Cert.KernelIdeal.IndexMaps
open Idealize.ShloMosaic Idealize.ShloMosaic.TcCoe Idealize.SL.Sem

variable {F : FTy → Type} [FloatOps F]
variable (m : (ℓ : Loc nD τ sig) → Buf (Elt F) ℓ)

/-- Every entry of the row table is a row number. -/
theorem tbl0_lt (p : Fin 32) : (tbl m 0 (Shape.Idx.ofFin p)).toNat < 32 := by
  rw [tbl0_apply]
  generalize σ (cat0 m) p = k
  have := k.isLt
  rw [BitVec.toNat_ofNat]; omega

/-- Every entry of the category table is one of the category words. -/
theorem tbl1_lt (h : ∀ k : Fin 32, (cat0 m (Shape.Idx.ofFin k)).toNat < 64) (p : Fin 32) :
    (tbl m 1 (Shape.Idx.ofFin p)).toNat < 64 := by
  rw [tbl1_apply]; exact h _

theorem ok_of_range (h : ∀ k : Fin 32, (cat0 m (Shape.Idx.ofFin k)).toNat < 64) : Ok m := by
  show ok0 (tbl m)
  unfold ok0
  refine ⟨fun i => ⟨fun a => ?_, Or.inl rfl⟩, fun i => ⟨fun a => ?_, Or.inl rfl⟩,
    fun i => ⟨fun a => ?_, Or.inl rfl⟩, fun i => ⟨fun a => ?_, Or.inl rfl⟩⟩
  · rw [transform_0_eq]
    have h0 := tbl0_lt m (step i)
    generalize (tbl m 0 (Shape.Idx.ofFin (step i))).toNat = v at h0 ⊢
    match a with
    | ⟨0, _⟩ => show (v + 1) * 1 ≤ 32; omega
    | ⟨1, _⟩ => show (0 + 1) * 512 ≤ 512; omega
    | ⟨2, _⟩ => show (0 + 1) * 1024 ≤ 1024; omega
  · rw [transform_1_eq]
    have h1 := tbl1_lt m h (step i)
    generalize (tbl m 1 (Shape.Idx.ofFin (step i))).toNat = v at h1 ⊢
    match a with
    | ⟨0, _⟩ => show (v + 1) * 1 ≤ 64; omega
    | ⟨1, _⟩ => show (0 + 1) * 1024 ≤ 1024; omega
    | ⟨2, _⟩ => show (0 + 1) * 1024 ≤ 1024; omega
  · rw [transform_2_eq]
    have h1 := tbl1_lt m h (step i)
    generalize (tbl m 1 (Shape.Idx.ofFin (step i))).toNat = v at h1 ⊢
    match a with
    | ⟨0, _⟩ => show (v + 1) * 1 ≤ 64; omega
    | ⟨1, _⟩ => show (0 + 1) * 1 ≤ 1; omega
    | ⟨2, _⟩ => show (0 + 1) * 1024 ≤ 1024; omega
  · rw [transform_3_eq]
    have h0 := tbl0_lt m (step i)
    generalize (tbl m 0 (Shape.Idx.ofFin (step i))).toNat = v at h0 ⊢
    match a with
    | ⟨0, _⟩ => show (v + 1) * 1 ≤ 32; omega
    | ⟨1, _⟩ => show (0 + 1) * 512 ≤ 512; omega
    | ⟨2, _⟩ => show (0 + 1) * 1024 ≤ 1024; omega

end Cert.KernelIdeal.Admissible

end
-- ==== Proof.BiasRows.lean ====
/-
  The bias table as the kernel's third window finds it: the [64, 1024] table with a unit axis put in the middle,
  entry (g, 0, q) the table's entry (g, q).
-/
import proofs.«414717_j15642270892654_3_alg».proof.Proof.Gen.KernelIdeal.Frame.Runs
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.BiasRows

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- Of the host operations before the region only the reshape writes the unit-axis bias array: when the region is entered
    it holds the [64, 1024] bias table read in row-major order at the shape [64, 1, 1024]. -/
theorem V_main_v0_eq (c : Dev nD) :
    (V m c main_v0 : S64x1x1024.Idx → Elt F .f32)
      = shapeCast S64x1x1024 (m ((c : Thread nD τ).loc main_arg3)) shapeCasts_S64x1024_S64x1x1024 := by
  dsimp only [V]
  simp only [hostOps0, hostOps0_1, hostOps0_2, List.flatten_cons, List.flatten_nil, List.append_nil, List.cons_append, List.nil_append]
  after_results
  rfl

theorem V_main_v0_apply (c : Dev nD) (g : Fin 64) (q : Fin 1024) :
    V m c main_v0 (ix3 g (0 : Fin 1) q) = m ((c : Thread nD τ).loc main_arg3) (ix2 g q) := by
  -- (g, 0, q) of [64, 1, 1024] and (g, q) of [64, 1024] sit at the same row-major position g · 1024 + q
  refine (congrFun (V_main_v0_eq m c) _).trans (shapeCast_apply _ _ _ (ix2 g q) ?_)
  rw [Shape.rowMajor_val_two, Shape.rowMajor_val_three]
  show g.val * 1024 + q.val = (g.val * 1 + 0) * 1024 + q.val
  omega

end Cert.KernelIdeal.BiasRows

end
-- ==== Proof.Result.lean ====
/-
  The array the kernel leaves, over the extended reals.

  At grid point t the pipeline hands the body slab σ t of x, the matrix and the bias row that the category word of
  row σ t names, and writes the body's block back as slab σ t of the result. The body's block is, entry by entry,
  Σ_k x(σ t, p, k) · w(cat (σ t), k, q) + b(cat (σ t), q): the block of the specification `lin` that the result
  window names at t. Since σ is a permutation of the 32 rows, consecutive points name different slabs, so every
  point writes its block back, and every row of the result is some point's slab: the array ends holding `lin`.
-/
import proofs.«414717_j15642270892654_3_alg».proof.Proof.Gen.KernelIdeal.Frame
import proofs.«414717_j15642270892654_3_alg».proof.Proof.Spec
import proofs.«414717_j15642270892654_3_alg».proof.Proof.Body
import proofs.«414717_j15642270892654_3_alg».proof.Proof.Payload
import proofs.«414717_j15642270892654_3_alg».proof.Proof.Blocks
import proofs.«414717_j15642270892654_3_alg».proof.Proof.Tables
import proofs.«414717_j15642270892654_3_alg».proof.Proof.Admissible
import proofs.«414717_j15642270892654_3_alg».proof.Proof.BiasRows
import Idealize.ShloMosaic.Lib.Pipeline.Value

set_option maxRecDepth 16384

noncomputable section

open scoped BigOperators

namespace Cert.KernelIdeal.Result

open Cert.KernelIdeal Cert.KernelIdeal.Gen Cert.KernelIdeal.Tables Cert.KernelIdeal.IndexMaps Cert.KernelIdeal.Blocks
open Cert.KernelIdeal.Admissible Cert.MoE
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The float argument arrays (on the program's one device), by their literal types. -/
abbrev xs : FVec Ideal S32x512x1024 .f32 := m (((0 : Dev nD) : Thread nD τ).loc main_arg0)
abbrev ws : FVec Ideal S64x1024x1024 .f32 := m (((0 : Dev nD) : Thread nD τ).loc main_arg2)
abbrev bs : FVec Ideal S64x1024 .f32 := m (((0 : Dev nD) : Thread nD τ).loc main_arg3)

/-- What the proof uses of the precondition: the category words in range, x and the weights real. -/
structure Good : Prop where
  range : ∀ k : Fin 32, (cat0 m (ix1 k)).toNat < 64
  xreal : ∀ i, ∃ r : ℝ, xs m i = (r : EReal)
  wreal : ∀ i, ∃ r : ℝ, ws m i = (r : EReal)

theorem ofFin_eq_ix1 {n : Nat} (k : Fin n) : Shape.Idx.ofFin k = ix1 k := by
  funext d; match d with | ⟨0, _⟩ => rfl

theorem Good.ok {m : (ℓ : Loc nD τ sig) → Buf (Elt Ideal) ℓ} (h : Good m) : Ok m :=
  ok_of_range m fun k => by rw [ofFin_eq_ix1]; exact h.range k

/-! ## The grid's points -/

theorem step_coords (t : Fin grid0.N) : (step (grid0.coords t)).val = t.val := by
  have hs : grid0.stride 0 = 1 := by decide
  have hN : grid0.N = 32 := N_0
  have ht := t.isLt
  show t.val / grid0.stride 0 % 32 = t.val
  rw [hs]; omega

/-- The batch row the grid visits at point t. -/
def row (t : Fin grid0.N) : Fin 32 := σ (cat0 m) (step (grid0.coords t))

theorem row_injective : Function.Injective (row m) := fun t t' h => by
  have := σ_injective (cat0 m) h
  exact Fin.ext ((step_coords t).symm.trans ((congrArg Fin.val this).trans (step_coords t')))

variable (hO : Ok m)

/-! ## Each window's block index at a point -/

theorem index0_eq (t : Fin (cfgM m hO).N) : ((cfgM m hO).win 0).index t = ![(row m t).val, 0, 0] := by
  rw [index0_of (adm m hO) (tbl m) rfl t, tbl0_apply]
  unfold row
  generalize σ (cat0 m) (step (grid0.coords t)) = k
  have := k.isLt
  rw [BitVec.toNat_ofNat, Nat.mod_eq_of_lt (by omega)]

theorem index3_eq (t : Fin (cfgM m hO).N) : ((cfgM m hO).win 3).index t = ![(row m t).val, 0, 0] := by
  rw [index3_of (adm m hO) (tbl m) rfl t, tbl0_apply]
  unfold row
  generalize σ (cat0 m) (step (grid0.coords t)) = k
  have := k.isLt
  rw [BitVec.toNat_ofNat, Nat.mod_eq_of_lt (by omega)]

theorem index1_eq (hG : Good m) (t : Fin (cfgM m hO).N) :
    ((cfgM m hO).win 1).index t = ![(catRow (cat0 m) (row m t)).val, 0, 0] := by
  rw [index1_of (adm m hO) (tbl m) rfl t, tbl1_apply, ofFin_eq_ix1, catRow_val _ _ (hG.range _)]
  rfl

theorem index2_eq (hG : Good m) (t : Fin (cfgM m hO).N) :
    ((cfgM m hO).win 2).index t = ![(catRow (cat0 m) (row m t)).val, 0, 0] := by
  rw [index2_of (adm m hO) (tbl m) rfl t, tbl1_apply, ofFin_eq_ix1, catRow_val _ _ (hG.range _)]
  rfl

/-! ## The input blocks at a point -/

theorem xblk_apply (c : Dev nD) (t : Fin (cfgM m hO).N) (y : S1x512x1024.Idx) :
    iblk m hO c 0 t y = xs m (ix3 (row m t) (y 1) (y 2)) := by
  obtain rfl : c = 0 := Subsingleton.elim _ _
  show (((cfgM m hO).win 0).blk t).view.read (Elt Ideal) (V m 0 main_arg0) y = _
  refine (blk0_read (adm m hO) t (V m 0 main_arg0) (row m t) (index0_eq m hO t) y).trans ?_
  exact congrFun (V_main_arg0 m 0) _

theorem wblk_apply (hG : Good m) (c : Dev nD) (t : Fin (cfgM m hO).N) (y : S1x1024x1024.Idx) :
    iblk m hO c 1 t y = ws m (ix3 (catRow (cat0 m) (row m t)) (y 1) (y 2)) := by
  obtain rfl : c = 0 := Subsingleton.elim _ _
  show (((cfgM m hO).win 1).blk t).view.read (Elt Ideal) (V m 0 main_arg2) y = _
  refine (blk1_read (adm m hO) t (V m 0 main_arg2) (catRow (cat0 m) (row m t)) (index1_eq m hO hG t) y).trans ?_
  exact congrFun (V_main_arg2 m 0) _

theorem bblk_apply (hG : Good m) (c : Dev nD) (t : Fin (cfgM m hO).N) (q : Fin 1024) :
    iblk m hO c 2 t (ix3 (0 : Fin 1) (0 : Fin 1) q) = bs m (ix2 (catRow (cat0 m) (row m t)) q) := by
  obtain rfl : c = 0 := Subsingleton.elim _ _
  show (((cfgM m hO).win 2).blk t).view.read (Elt Ideal) (V m 0 main_v0) (ix3 (0 : Fin 1) (0 : Fin 1) q) = _
  refine (blk2_read (adm m hO) t (V m 0 main_v0) (catRow (cat0 m) (row m t)) (index2_eq m hO hG t) (ix3 (0 : Fin 1) (0 : Fin 1) q)).trans ?_
  exact BiasRows.V_main_v0_apply m 0 (catRow (cat0 m) (row m t)) q

/-! ## What a point writes back -/

/-- Point t writes back the block of `lin` that the result window names at t. -/
theorem flushed_eq (hG : Good m) (c : Dev nD) (t : Fin (cfgM m hO).N) :
    (dats m hO 0 c).flushed 3 t
      = (((cfgM m hO).win 3).blk t).view.read (Elt Ideal) (lin (xs m) (cat0 m) (ws m) (bs m)) := by
  show ((cfgM m hO).win 3).cut (grid0.coords t) ((dats m hO 0 c).after 3 t) = _
  rw [after0_3]
  unfold outsAt0
  refine funext fun (y : S1x512x1024.Idx) => ?_
  obtain ⟨p, q, rfl⟩ : ∃ (p : Fin 512) (q : Fin 1024), y = ix3 (0 : Fin 1) p q :=
    ⟨y 1, y 2, (eq_ix3 y).trans (congrArg (fun z : Fin 1 => ix3 z (y 1) (y 2)) (Subsingleton.elim _ _))⟩
  refine Eq.trans ?_ (blk3_read (adm m hO) t (lin (xs m) (cat0 m) (ws m) (bs m)) (row m t) (index3_eq m hO t) (ix3 (0 : Fin 1) p q)).symm
  refine (congrFun (Body.out_eq (F := Ideal) c (grid0.coords t) (ms0_0 m hO t) (hs0_0 m hO t) (ms0_1 m hO t) (hs0_1 m hO t)
    (ms0_2 m hO t) (hs0_2 m hO t) (ms0_3 m hO t) (hs0_3 m hO t) (iblk m hO c 0 t) (iblk m hO c 1 t) (iblk m hO c 2 t)
    (tbl m 0) (tbl m 1)) (ix3 (0 : Fin 1) p q)).trans ?_
  show k0_pay1 (F := Ideal) (iblk m hO c 0 t) (iblk m hO c 1 t) (iblk m hO c 2 t) (ix3 (0 : Fin 1) p q)
    = linAt (xs m) (cat0 m) (ws m) (bs m) (row m t) p q
  refine (Payload.pay_apply (iblk m hO c 0 t) (iblk m hO c 1 t) (iblk m hO c 2 t)
    (fun i => by rw [xblk_apply m hO c t i]; exact hG.xreal _)
    (fun i => by rw [wblk_apply m hO hG c t i]; exact hG.wreal _) p q).trans ?_
  unfold linAt
  refine congrArg₂ (fun a b : EReal => a + b) (Finset.sum_congr rfl fun k _ => ?_) (bblk_apply m hO hG c t q)
  exact congrArg₂ (fun a b : EReal => a * b) (xblk_apply m hO c t (ix3 (0 : Fin 1) p k)) (wblk_apply m hO hG c t (ix3 (0 : Fin 1) k q))

/-! ## Every point writes back, and the blocks cover the array -/

theorem N_eq : (cfgM m hO).N = 32 := N_0

/-- Consecutive points name different slabs (σ is injective), so every point writes its block back. -/
theorem flush3 (t : Fin (cfgM m hO).N) : ((cfgM m hO).win 3).flush t = true := by
  unfold Pipeline.Window.flush
  rw [Bool.and_eq_true]
  refine ⟨rfl, ?_⟩
  rw [Bool.or_eq_true, decide_eq_true_eq, decide_eq_true_eq]
  have hN : (cfgM m hO).grid.N = 32 := N_0
  have ht : t.val < 32 := hN ▸ t.isLt
  by_cases hl : t.val + 1 = (cfgM m hO).grid.N
  · exact Or.inl hl
  · refine Or.inr ⟨by omega, fun e => ?_⟩
    rw [index3_eq, index3_eq] at e
    have e0 : (row m _).val = (row m t).val := congrFun e 0
    have := congrArg Fin.val (row_injective m (Fin.ext e0))
    simp at this

/-- Every index of the result lies in the block of the point that visits its row. -/
theorem cover (i : S32x512x1024.Idx) :
    ∃ t : Fin (cfgM m hO).N, ((cfgM m hO).win 3).flush t = true ∧ i ∈ (((cfgM m hO).win 3).blk t).view.set := by
  obtain ⟨k, hk⟩ := σ_surjective (cat0 m) (i 0)
  have hN : (cfgM m hO).N = 32 := N_eq m hO
  let t : Fin (cfgM m hO).N := ⟨k.val, by rw [hN]; exact k.isLt⟩
  have hrow : row m t = i 0 := by
    unfold row
    rw [show step (grid0.coords t) = k from Fin.ext (step_coords t)]
    exact hk
  refine ⟨t, flush3 m hO t, ?_⟩
  have he : (((cfgM m hO).win 3).blk t).view.emb (ix3 (0 : Fin 1) (i 1) (i 2)) = i := by
    funext d
    apply Fin.ext
    match d with
    | ⟨0, _⟩ =>
      show ((cfgM m hO).win 3).index t (0 : Fin 3) * 1 + 1 * 0 = (i 0).val
      rw [index3_eq, hrow]; show (i 0).val * 1 + 1 * 0 = (i 0).val; omega
    | ⟨1, _⟩ =>
      show ((cfgM m hO).win 3).index t (1 : Fin 3) * 512 + 1 * (i 1).val = (i 1).val
      rw [index3_eq]; show 0 * 512 + 1 * (i 1).val = (i 1).val; omega
    | ⟨2, _⟩ =>
      show ((cfgM m hO).win 3).index t (2 : Fin 3) * 1024 + 1 * (i 2).val = (i 2).val
      rw [index3_eq]; show 0 * 1024 + 1 * (i 2).val = (i 2).val; omega
  rw [← he]
  exact View.emb_mem_set _ _

/-- The result array after the run. -/
theorem final (hG : Good m) (c : Dev nD) :
    (dats m hO 0 c).arrAt 3 (cfgM m hO).N = lin (xs m) (cat0 m) (ws m) (bs m) :=
  (dats m hO 0 c).arrAt_eq_of_cover 3 (lin (xs m) (cat0 m) (ws m) (bs m)) (fun t _ => flushed_eq m hO hG c t) (cover m hO)

/-! ## The run, with its result named -/

theorem run (hG : Good m) :
    θ_run defs (onTc (τ := τ) (main (F := Ideal))) ⟨m, fun _ => 0, ρ⟩ (fun r => ∀ c : Dev nD,
      r.2.mem ((c.tc : Thread nD τ).loc main_v9) = lin (xs m) (cat0 m) (ws m) (bs m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans (final m hG.ok hG c),
      ((h c).1 0).trans (((dats m hG.ok 0 c).arrAt_in 0 rfl _).trans ((A_eq m hG.ok c 0).trans (V_main_arg0 m c))),
      ((h c).2 main_arg1 (by decide : main_arg1 ∈ Pipeline.restRefs sig spec0)).trans (V_main_arg1 m c),
      ((h c).1 1).trans (((dats m hG.ok 0 c).arrAt_in 1 rfl _).trans ((A_eq m hG.ok c 1).trans (V_main_arg2 m c))),
      ((h c).2 main_arg3 (by decide : main_arg3 ∈ Pipeline.restRefs sig spec0)).trans (V_main_arg3 m c)⟩)
    (run_main m ρ hG.ok)

end Cert.KernelIdeal.Result

end
-- ==== Proof.BitsTables.lean ====
/-
  The two prefetched tables of the kernel, as functions of the category words.

  The first table is the stable argsort of the 32 category words: a permutation σ of the 32 batch rows (the grid
  visits the rows in the order σ 0, σ 1, …). The second is the category words carried along that order: entry t is
  the word of row σ t. Each block the pipeline moves is named by one of these entries — a row of x and of the
  result by σ t, a matrix of the weight table and a row of the bias table by the word of row σ t — so every block
  lies inside its array as soon as every word is in 0 … 63.
-/
import proofs.«414717_j15642270892654_3_alg».proof.Proof.Gen.Kernel.Frame.Runs
import Idealize.ShloMosaic.Lib.SortFacts
import Idealize.ShloMosaic.Lib.StableHlo.Predicate
import Idealize.ShloMosaic.Lib.StableHlo.Run
import Idealize.ShloMosaic.Lib.ValueIdx

set_option maxRecDepth 16384

noncomputable section

namespace Cert.Kernel.Tables

open Cert.Kernel Cert.Kernel.Gen
open Idealize.ShloMosaic Idealize.ShloMosaic.TcCoe Idealize.SL.Sem Idealize.ShloMosaic.StableHlo
open Idealize.ShloMosaic.ValueIdx

/-! ## A two-operand sort of a rank-1 table reads both operands through one self-map of the positions -/

/-- Position k sorts before position k': the comparator on the pairs of the two operands' entries. -/
def pairBefore {n : Nat} {α β : Type} (cmp : α × β → α × β → BitVec 1)
    (x : (⟨1, ![n]⟩ : Shape).Idx → α) (y : (⟨1, ![n]⟩ : Shape).Idx → β) : Fin n → Fin n → Bool := fun k k' =>
  cmp (x (Shape.Idx.ofFin k), y (Shape.Idx.ofFin k)) (x (Shape.Idx.ofFin k'), y (Shape.Idx.ofFin k')) == 1#1

theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j = y (Shape.Idx.ofFin (sortedFrom (pairBefore cmp x y) (j 0))) := by
  unfold Host.sort2 pairBefore
  simp

variable {F : FTy → Type} [FloatOps F]
variable (m : (ℓ : Loc nD τ sig) → Buf (Elt F) ℓ)

/-- The category words (on the program's one device). -/
abbrev cat0 : IVec S32 32 := m (((0 : Dev nD) : Thread nD τ).loc main_arg1)

theorem tbl0_eq : tbl m 0 = (Host.sort2 S32 0 comparator_i32_i32_d0 (cat0 m) (iotaInDim S32 32 0)).2 := by
  unfold tbl
  show V m 0 main_v1 = _
  unfold V
  simp only [hostOps0, hostOps0_1, hostOps0_2, List.flatten_cons, List.flatten_nil, List.append_nil, List.cons_append, List.nil_append]
  after_results
  rfl

/-- The first table, typed by its literal shape. -/
abbrev perm : IVec S32 32 := tbl m 0

theorem tbl1_eq : tbl m 1 = Host.gather gather_S32_S32x1_S32_n_0_n_n_0_1_1 (cat0 m)
    (broadcastInDim S32x1 ![0] bcast_S32_S32x1_0
      (select (cmpi .slt (perm m) (broadcastInDim S32 ![] bcast_S_S32 (constantI S_ 32 0#32)))
        (addi (perm m) (broadcastInDim S32 ![] bcast_S_S32 (constantI S_ 32 32#32))) (perm m))) := by
  unfold perm
  rw [tbl0_eq]
  unfold tbl
  show V m 0 main_v8 = _
  unfold V
  simp only [hostOps0, hostOps0_1, hostOps0_2, List.flatten_cons, List.flatten_nil, List.append_nil, List.cons_append, List.nil_append]
  after_results
  rfl

/-! ## The visiting order -/

/-- The batch row the grid visits at step t: the stable argsort of the words (compared as pairs with their
    positions). -/
def σ (x : IVec S32 32) : Fin 32 → Fin 32 := sortedFrom (pairBefore comparator_i32_i32_d0 x (iotaInDim S32 32 0))

theorem σ_injective (x : IVec S32 32) : Function.Injective (σ x) := sortedFrom_injective _
theorem σ_surjective (x : IVec S32 32) : Function.Surjective (σ x) := sortedFrom_surjective _

/-- Entry t of the first table is the row σ t, as a word. -/
theorem tbl0_apply (p : Fin 32) : tbl m 0 (Shape.Idx.ofFin p) = BitVec.ofNat 32 (σ (cat0 m) p).val := by
  rw [tbl0_eq, sort2_snd_rank1, Shape.Idx.ofFin_zero]
  unfold σ
  exact StableHlo.Predicate.iota_apply _

-- all that is used of σ below: it is a bijection of the 32 rows, and the first table lists it
attribute [irreducible] σ

/-- A row number below 32, as a 32-bit word, is not negative (the wrap of a negative index is not taken), and its
    signed value, clamped into 0 … 31, is the row number. -/
theorem row_word (k : Fin 32) :
    min (Scalar.select (IntOp.cmpi .slt (BitVec.ofNat 32 k.val) 0#32) (IntOp.addi (BitVec.ofNat 32 k.val) 32#32)
      (BitVec.ofNat 32 k.val)).toInt.toNat (32 - 1) = k.val := by
  have hk := k.isLt
  have hn : ¬ IntOp.cmpi .slt (BitVec.ofNat 32 k.val) 0#32 = 1#1 := by
    rw [StableHlo.Predicate.slt_iff_toNat (by rw [BitVec.toNat_ofNat]; omega) (by decide)]
    exact Nat.not_lt_zero _
  unfold Scalar.select
  rw [if_neg (show ¬ _ = (1 : BitVec 1) from hn), StableHlo.Predicate.toInt_ofNat_small k.val (by omega), Int.toNat_natCast]
  omega

/-- Words carried along an order: where table T holds, at position p, the row number k, the gather of the words
    C at T (negative entries wrapped, every entry clamped into 0 … 31) holds at p the word of row k. -/
theorem carried (C T : IVec S32 32) (p k : Fin 32) (h0 : T (Shape.Idx.ofFin p) = BitVec.ofNat 32 k.val) :
    Host.gather gather_S32_S32x1_S32_n_0_n_n_0_1_1 C
      (broadcastInDim S32x1 ![0] bcast_S32_S32x1_0
        (select (cmpi .slt T (broadcastInDim S32 ![] bcast_S_S32 (constantI S_ 32 0#32)))
          (addi T (broadcastInDim S32 ![] bcast_S_S32 (constantI S_ 32 32#32))) T)) (Shape.Idx.ofFin p)
      = C (Shape.Idx.ofFin k) := by
  rw [StableHlo.Predicate.gather_take _ rfl rfl rfl rfl _ _ p (by decide)]
  refine congrArg (fun k => C (Shape.Idx.ofFin k)) (Fin.ext ?_)
  rw [Fin.val_mk, StableHlo.Predicate.bcast_col1]
  show min (Scalar.select (IntOp.cmpi .slt (T (Shape.Idx.ofFin p)) 0#32) (IntOp.addi (T (Shape.Idx.ofFin p)) 32#32)
    (T (Shape.Idx.ofFin p))).toInt.toNat (32 - 1) = k.val
  rw [h0]
  exact row_word k

/-- Entry t of the second table is the category word of row σ t. -/
theorem tbl1_apply (p : Fin 32) : tbl m 1 (Shape.Idx.ofFin p) = cat0 m (Shape.Idx.ofFin (σ (cat0 m) p)) := by
  rw [tbl1_eq]
  exact carried (cat0 m) (perm m) p (σ (cat0 m) p) (tbl0_apply m p)

end Cert.Kernel.Tables

end
-- ==== Proof.BitsIndexMaps.lean ====
/-
  The four index maps of the kernel's windows, in closed form, at ANY contents of the two tables.

  The grid has one axis of 32 steps. At step i each map reads one table word — the row table for the x and result
  windows, the category table for the weight and bias windows — and returns (word, 0, 0).
-/
import proofs.«414717_j15642270892654_3_alg».proof.Proof.Gen.Kernel
import Idealize.ShloMosaic.Lib.SortFacts

set_option maxRecDepth 16384

noncomputable section

namespace Cert.Kernel.IndexMaps

open Cert.Kernel Cert.Kernel.Gen
open Idealize.ShloMosaic Idealize.SL.Sem

variable {F : FTy → Type} [FloatOps F]

/-! ## The index maps in closed form -/

/-- The grid step of a setting of the grid's one coordinate. -/
def step (i : grid0.Coords) : Fin 32 := ⟨(i 0).val, (i 0).isLt⟩

/-- The one word a unit rectangle of a 32-entry table at offset (i 0) holds is entry (i 0). -/
theorem word_idx (i : grid0.Coords) (off : Fin 1 → Nat) (hoff : off 0 = (i 0).val)
    (inb : ∀ a, off a + S1.size a ≤ S32.size a) (h1 : 0 < S1.numel) :
    (Rect.unit (s := S32) off S1.size inb).emb (Shape.Idx.first h1) = Shape.Idx.ofFin (step i) := by
  funext a
  match a with
  | ⟨0, _⟩ =>
    apply Fin.ext
    rw [Rect.emb_apply]
    have h0 : (Shape.Idx.first h1 (0 : Fin 1)).val < 1 := (Shape.Idx.first h1 (0 : Fin 1)).isLt
    show off 0 + 1 * (Shape.Idx.first h1 (0 : Fin 1)).val = (i 0).val
    omega

/-- The step, as the 32-bit word the index maps compute, is the step. -/
theorem off_val (i : grid0.Coords) : (Scalar.indexCast (BitVec.ofNat 32 (i 0).val)).toNat = (i 0).val := by
  have h : (i 0).val < 32 := (i 0).isLt
  show (BitVec.ofNat 32 (i 0).val).toNat = _
  rw [BitVec.toNat_ofNat]; omega

theorem transform_0_eq (pf : pre0.Contents (Elt F)) (i : grid0.Coords) :
    cc0_transform_0 k0_off1_inb numel1_S1 pf i = ![(pf 0 (Shape.Idx.ofFin (step i))).toNat, 0, 0] := by
  unfold cc0_transform_0
  dsimp only
  exact congrArg (fun z : S32.Idx => (![(pf 0 z).toNat, 0, 0] : Fin 3 → Nat)) (word_idx i _ (off_val i) _ _)

theorem transform_1_eq (pf : pre0.Contents (Elt F)) (i : grid0.Coords) :
    cc0_transform_1 k0_off1_inb numel1_S1 pf i = ![(pf 1 (Shape.Idx.ofFin (step i))).toNat, 0, 0] := by
  unfold cc0_transform_1
  dsimp only
  exact congrArg (fun z : S32.Idx => (![(pf 1 z).toNat, 0, 0] : Fin 3 → Nat)) (word_idx i _ (off_val i) _ _)

theorem transform_2_eq (pf : pre0.Contents (Elt F)) (i : grid0.Coords) :
    cc0_transform_2 k0_off1_inb numel1_S1 pf i = ![(pf 1 (Shape.Idx.ofFin (step i))).toNat, 0, 0] := by
  unfold cc0_transform_2
  dsimp only
  exact congrArg (fun z : S32.Idx => (![(pf 1 z).toNat, 0, 0] : Fin 3 → Nat)) (word_idx i _ (off_val i) _ _)

theorem transform_3_eq (pf : pre0.Contents (Elt F)) (i : grid0.Coords) :
    cc0_transform_3 k0_off1_inb numel1_S1 pf i = ![(pf 0 (Shape.Idx.ofFin (step i))).toNat, 0, 0] := by
  unfold cc0_transform_3
  dsimp only
  exact congrArg (fun z : S32.Idx => (![(pf 0 z).toNat, 0, 0] : Fin 3 → Nat)) (word_idx i _ (off_val i) _ _)

end Cert.Kernel.IndexMaps

end
-- ==== Proof.BitsAdmissible.lean ====
/-
  Every block the pipeline moves lies inside its array as soon as every category word is in 0 … 63: the x and
  result windows move slab σ t of a [32, 512, 1024] array with σ t < 32, the weight and bias windows move the slab
  named by the word of row σ t, which is below 64.
-/
import proofs.«414717_j15642270892654_3_alg».proof.Proof.BitsTables
import proofs.«414717_j15642270892654_3_alg».proof.Proof.BitsIndexMaps

set_option maxRecDepth 16384

noncomputable section

namespace Cert.Kernel.Admissible

open Cert.Kernel Cert.Kernel.Gen Cert.Kernel.Tables Cert.Kernel.IndexMaps
open Idealize.ShloMosaic Idealize.ShloMosaic.TcCoe Idealize.SL.Sem

variable {F : FTy → Type} [FloatOps F]
variable (m : (ℓ : Loc nD τ sig) → Buf (Elt F) ℓ)

/-- Every entry of the row table is a row number. -/
theorem tbl0_lt (p : Fin 32) : (tbl m 0 (Shape.Idx.ofFin p)).toNat < 32 := by
  rw [tbl0_apply]
  generalize σ (cat0 m) p = k
  have := k.isLt
  rw [BitVec.toNat_ofNat]; omega

/-- Every entry of the category table is one of the category words. -/
theorem tbl1_lt (h : ∀ k : Fin 32, (cat0 m (Shape.Idx.ofFin k)).toNat < 64) (p : Fin 32) :
    (tbl m 1 (Shape.Idx.ofFin p)).toNat < 64 := by
  rw [tbl1_apply]; exact h _

theorem ok_of_range (h : ∀ k : Fin 32, (cat0 m (Shape.Idx.ofFin k)).toNat < 64) : Ok m := by
  show ok0 (tbl m)
  unfold ok0
  refine ⟨fun i => ⟨fun a => ?_, Or.inl rfl⟩, fun i => ⟨fun a => ?_, Or.inl rfl⟩,
    fun i => ⟨fun a => ?_, Or.inl rfl⟩, fun i => ⟨fun a => ?_, Or.inl rfl⟩⟩
  · rw [transform_0_eq]
    have h0 := tbl0_lt m (step i)
    generalize (tbl m 0 (Shape.Idx.ofFin (step i))).toNat = v at h0 ⊢
    match a with
    | ⟨0, _⟩ => show (v + 1) * 1 ≤ 32; omega
    | ⟨1, _⟩ => show (0 + 1) * 512 ≤ 512; omega
    | ⟨2, _⟩ => show (0 + 1) * 1024 ≤ 1024; omega
  · rw [transform_1_eq]
    have h1 := tbl1_lt m h (step i)
    generalize (tbl m 1 (Shape.Idx.ofFin (step i))).toNat = v at h1 ⊢
    match a with
    | ⟨0, _⟩ => show (v + 1) * 1 ≤ 64; omega
    | ⟨1, _⟩ => show (0 + 1) * 1024 ≤ 1024; omega
    | ⟨2, _⟩ => show (0 + 1) * 1024 ≤ 1024; omega
  · rw [transform_2_eq]
    have h1 := tbl1_lt m h (step i)
    generalize (tbl m 1 (Shape.Idx.ofFin (step i))).toNat = v at h1 ⊢
    match a with
    | ⟨0, _⟩ => show (v + 1) * 1 ≤ 64; omega
    | ⟨1, _⟩ => show (0 + 1) * 1 ≤ 1; omega
    | ⟨2, _⟩ => show (0 + 1) * 1024 ≤ 1024; omega
  · rw [transform_3_eq]
    have h0 := tbl0_lt m (step i)
    generalize (tbl m 0 (Shape.Idx.ofFin (step i))).toNat = v at h0 ⊢
    match a with
    | ⟨0, _⟩ => show (v + 1) * 1 ≤ 32; omega
    | ⟨1, _⟩ => show (0 + 1) * 512 ≤ 512; omega
    | ⟨2, _⟩ => show (0 + 1) * 1024 ≤ 1024; omega

end Cert.Kernel.Admissible

end
-- ==== Proof.lean ====
/-
  The certificate of a category-specific linear layer: per batch row r, out[r] = x[r] · W[cat r] + b[cat r], a Pallas
  kernel against its jnp reference, equal over the extended reals.

  THE KERNEL walks the 32 batch rows in the order of a stable argsort σ of the category words, so that rows of one
  category meet the same weight matrix on consecutive grid steps. Two tables carry the order — σ itself, and the
  words in that order —, and the four windows' block indices are read off them: slab σ t of x and of the result, the
  matrix and the bias row of category cat (σ t). The body multiplies in three passes, splitting each operand into a
  narrowed part and the residual x − narrow(x): hi·hi + hi·lo + lo·hi. Over the extended reals narrowing is the
  identity, so for real entries both residuals are 0, the second and third products vanish, and the block is
  Σ_k x(σ t, p, k) · w(cat (σ t), k, q) + b(cat (σ t), q). As σ is a permutation, every row of the result is written
  exactly once, with its own category's matrix: the array ends at `lin x cat w b` (Proof/Spec.lean, Proof/Result.lean).

  THE REFERENCE gathers W[cat] and b[cat] (a negative word wrapped by 64, every word clamped into 0 … 63) and takes one
  batched matrix product. For words in 0 … 63 neither the wrap nor the clamp moves a word, and the product read at an
  index is the same sum: `lin x cat w b` again (Proof/RefValue.lean).

  THE PRECONDITION says the float inputs are finite and every category word is in 0 … 63. Finiteness is what makes
  the residuals 0 (∞ − ∞ is not 0). The range is what keeps every block the pipeline moves inside its array
  (Proof/Admissible.lean, at both instances), and what makes the reference's gather read the word's own row.

  The word-level kernel takes part only through its frame: it runs, without a fault, and leaves its arguments
  unchanged; and the two narrow-then-widen sites the idealization removed are each the rule's statement.
-/
import proofs.«414717_j15642270892654_3_alg».proof.Defs
import proofs.«414717_j15642270892654_3_alg».proof.Proof.Gen.Kernel
import proofs.«414717_j15642270892654_3_alg».proof.Proof.Gen.Kernel.Skeleton
import proofs.«414717_j15642270892654_3_alg».proof.Proof.Gen.Kernel.Launch
import proofs.«414717_j15642270892654_3_alg».proof.Proof.Gen.Kernel.Points
import proofs.«414717_j15642270892654_3_alg».proof.Proof.Gen.Kernel.Frame
import proofs.«414717_j15642270892654_3_alg».proof.Proof.Gen.KernelIdeal
import proofs.«414717_j15642270892654_3_alg».proof.Proof.Gen.KernelIdeal.Skeleton
import proofs.«414717_j15642270892654_3_alg».proof.Proof.Gen.KernelIdeal.Launch
import proofs.«414717_j15642270892654_3_alg».proof.Proof.Gen.KernelIdeal.Points
import proofs.«414717_j15642270892654_3_alg».proof.Proof.Gen.KernelIdeal.Frame
import proofs.«414717_j15642270892654_3_alg».proof.Proof.Gen.ReferenceIdeal
import proofs.«414717_j15642270892654_3_alg».proof.Proof.Gen.ReferenceIdeal.Run
import proofs.«414717_j15642270892654_3_alg».proof.Proof.Gen.ReferenceIdeal.Read
import proofs.«414717_j15642270892654_3_alg».proof.Proof.Gen.Pre_finite_inputs
import proofs.«414717_j15642270892654_3_alg».proof.Proof.PreDecode
import proofs.«414717_j15642270892654_3_alg».proof.Proof.RefValue
import proofs.«414717_j15642270892654_3_alg».proof.Proof.Result
import proofs.«414717_j15642270892654_3_alg».proof.Proof.BitsAdmissible
import Idealize.ShloMosaic.Adequacy
import Idealize.ShloMosaic.Init

noncomputable section

namespace Cert.Proof

open Idealize.ShloMosaic Idealize.ShloMosaic.TcCoe Idealize.SL.Sem Idealize.ShloMosaic.ValueIdx
open Cert.MoE

/-- What the value proof uses of the precondition, read off the idealized kernel's launch memory. -/
theorem good_of_pre (m : (ℓ : Loc Cert.KernelIdeal.nD Cert.KernelIdeal.τ Cert.KernelIdeal.sig) → Buf (Elt Ideal) ℓ)
    (h : Cert.Pre_KernelIdeal m) : Cert.KernelIdeal.Result.Good m where
  range k := PreDecode.cat_lt _ _ _ _ (h 0) k
  xreal i := PreDecode.x_real _ _ _ _ (h 0) i
  wreal i := PreDecode.w_real _ _ _ _ (h 0) i

/-- The word-level kernel's blocks lie inside their arrays: the category words are in range. -/
theorem ok_of_pre (m : (ℓ : Loc Cert.Kernel.nD Cert.Kernel.τ Cert.Kernel.sig) → Buf (Elt Bits) ℓ)
    (h : Cert.Pre_Kernel m) : Cert.Kernel.Gen.Ok m :=
  Cert.Kernel.Admissible.ok_of_range m fun k => by
    rw [Cert.KernelIdeal.Result.ofFin_eq_ix1]; exact PreDecode.cat_lt (F := Bits) _ _ _ _ (h 0) k

theorem frame_k : Cert.frame_Kernel := fun m ρ h => Cert.Kernel.Gen.frame m ρ (ok_of_pre m h)

theorem frame_ki : Cert.frame_KernelIdeal := fun m ρ h => Cert.KernelIdeal.Gen.frame m ρ (good_of_pre m h).ok

theorem frame_ri : Cert.frame_ReferenceIdeal := fun m ρ _ =>
  (θ_run Cert.ReferenceIdeal.defs _ _).mono (fun _ h c => (h c).2) (Cert.ReferenceIdeal.Value.run (F := Ideal) m ρ)

/-- The two sites where the body narrows an f32 block to bf16 and widens it back: at the ideal instance the
    identity, at the word level the rounding through bf16. -/
theorem preserves : Cert.preserves_Kernel_KernelIdeal :=
  ⟨IdealRules.truncf_extf.statement Cert.KernelIdeal.S512x1024 .f32 .bf16,
    IdealRules.truncf_extf.statement Cert.KernelIdeal.S1024x1024 .f32 .bf16⟩

/-- Both idealized programs end at `lin` of the (agreeing) arguments. -/
theorem algebraic : Cert.algebraic_KernelIdeal_ReferenceIdeal := by
  intro m ρ m' ρ' hpre hagree
  have hG := good_of_pre m hpre
  refine ⟨fun _ => lin (Cert.KernelIdeal.Result.xs m) (Cert.KernelIdeal.Tables.cat0 m) (Cert.KernelIdeal.Result.ws m)
    (Cert.KernelIdeal.Result.bs m), Cert.KernelIdeal.Result.run m ρ hG, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [(hagree 0).1, (hagree 0).2.1, (hagree 0).2.2.1, (hagree 0).2.2.2]
  exact (Cert.ReferenceIdeal.Read.val_main_v17_eq _ _ _ _).trans (RefValue.ref_eq _ _ _ _ hG.range)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
